-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x1 : Shape := ⟨2, ![1000000, 1]⟩
abbrev S60x2 : Shape := ⟨2, ![60, 2]⟩
abbrev S60 : Shape := ⟨1, ![60]⟩
abbrev S60x60 : Shape := ⟨2, ![60, 60]⟩
abbrev S1x60 : Shape := ⟨2, ![1, 60]⟩
abbrev S1 : Shape := ⟨1, ![1]⟩
abbrev S_ : Shape := ⟨0, ![]⟩

class Facts : Prop where
  bcast_S_S1000000x1 : S_.BroadcastsInDim S1000000x1 (![] : Fin 0 → Fin S1000000x1.rank)
  reducesTo_S1000000x1_S_d0_1 : S1000000x1.ReducesTo [0, 1] S_
  h_S_ : 0 < S_.numel
  bcast_S_S60x2 : S_.BroadcastsInDim S60x2 (![] : Fin 0 → Fin S60x2.rank)
  reducesTo_S60x2_S_d0_1 : S60x2.ReducesTo [0, 1] S_
  bcast_S_S60 : S_.BroadcastsInDim S60 (![] : Fin 0 → Fin S60.rank)
  reducesTo_S60_S_d0 : S60.ReducesTo [0] S_
  bcast_S_S60x60 : S_.BroadcastsInDim S60x60 (![] : Fin 0 → Fin S60x60.rank)
  reducesTo_S60x60_S_d0_1 : S60x60.ReducesTo [0, 1] S_
  bcast_S_S1x60 : S_.BroadcastsInDim S1x60 (![] : Fin 0 → Fin S1x60.rank)
  reducesTo_S1x60_S_d0_1 : S1x60.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1x60 .f32) (main_arg15 : FVec F S1 .f32) (main_v63 : IVec S_ 1) (main_v67 : IVec S_ 1) : IVec S_ 1 :=
  let main_v68 : IVec S_ 1 := andi main_v63 main_v67
  let main_v69 : FVec F S1x60 .f32 := Host.absf main_arg14
  let main_cst_26 : FVec F S_ .f32 := constant S_ .f32 0x7F800000#32
  let main_v70 : FVec F S1x60 .f32 := broadcastInDim S1x60 ![] bcast_S_S1x60 main_cst_26
  let main_v71 : IVec S1x60 1 := cmpf .olt main_v69 main_v70
  let main_c_27 : IVec S_ 1 := constantI S_ 1 1#1
  let main_v72 : IVec S_ 1 := (fun x v => Host.reduce IntOp.andi x v reducesTo_S1x60_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S60 .f32) (main_arg12 : FVec F S60x60 .f32) (main_arg13 : FVec F S60 .f32) (main_arg14 : FVec F S1x60 .f32) (main_arg15 : FVec F S1 .f32) (main_v48 : IVec S_ 1) (main_v49 : FVec F S60x60 .f32) (main_v50 : FVec F S60x60 .f32) : IVec S_ 1 :=
  let main_v51 : IVec S60x60 1 := cmpf .olt main_v49 main_v50
  let main_c_19 : IVec S_ 1 := constantI S_ 1 1#1
  let main_v52 : IVec S_ 1 := (fun x v => Host.reduce IntOp.andi x v reducesTo_S60x60_S_d0_1 h_S_) main_v51 main_c_19
  let main_v53 : IVec S_ 1 := andi main_v48 main_v52
  let main_v54 : FVec F S60 .f32 := Host.absf main_arg11
  let main_cst_20 : FVec F S_ .f32 := constant S_ .f32 0x7F800000#32
  let main_v55 : FVec F S60 .f32 := broadcastInDim S60 ![] bcast_S_S60 main_cst_20
  let main_v56 : IVec S60 1 := cmpf .olt main_v54 main_v55
  let main_c_21 : IVec S_ 1 := constantI S_ 1 1#1
  let main_v57 : IVec S_ 1 := (fun x v => Host.reduce IntOp.andi x v reducesTo_S60_S_d0 h_S_) main_v56 main_c_21
  let main_v58 : IVec S_ 1 := andi main_v53 main_v57
  let main_v59 : FVec F S60x60 .f32 := Host.absf main_arg12
  let main_cst_22 : FVec F S_ .f32 := constant S_ .f32 0x7F800000#32
  let main_v60 : FVec F S60x60 .f32 := broadcastInDim S60x60 ![] bcast_S_S60x60 main_cst_22
  let main_v61 : IVec S60x60 1 := cmpf .olt main_v59 main_v60
  let main_c_23 : IVec S_ 1 := constantI S_ 1 1#1
  let main_v62 : IVec S_ 1 := (fun x v => Host.reduce IntOp.andi x v reducesTo_S60x60_S_d0_1 h_S_) main_v61 main_c_23
  let main_v63 : IVec S_ 1 := andi main_v58 main_v62
  let main_v64 : FVec F S60 .f32 := Host.absf main_arg13
  let main_cst_24 : FVec F S_ .f32 := constant S_ .f32 0x7F800000#32
  let main_v65 : FVec F S60 .f32 := broadcastInDim S60 ![] bcast_S_S60 main_cst_24
  let main_v66 : IVec S60 1 := cmpf .olt main_v64 main_v65
  let main_c_25 : IVec S_ 1 := constantI S_ 1 1#1
  let main_v67 : IVec S_ 1 := (fun x v => Host.reduce IntOp.andi x v reducesTo_S60_S_d0 h_S_) main_v66 main_c_25
  fn_part4 (F := F) main_arg14 main_arg15 main_v63 main_v67

def fn_part2 {F : FTy → Type} [FloatOps F] (main_arg7 : FVec F S60 .f32) (main_arg8 : FVec F S60x60 .f32) (main_arg9 : FVec F S60 .f32) (main_arg10 : FVec F S60x60 .f32) (main_arg11 : FVec F S60 .f32) (main_arg12 : FVec F S60x60 .f32) (main_arg13 : FVec F S60 .f32) (main_arg14 : FVec F S1x60 .f32) (main_arg15 : FVec F S1 .f32) (main_v33 : IVec S_ 1) : IVec S_ 1 :=
  let main_v34 : FVec F S60 .f32 := Host.absf main_arg7
  let main_cst_12 : FVec F S_ .f32 := constant S_ .f32 0x7F800000#32
  let main_v35 : FVec F S60 .f32 := broadcastInDim S60 ![] bcast_S_S60 main_cst_12
  let main_v36 : IVec S60 1 := cmpf .olt main_v34 main_v35
  let main_c_13 : IVec S_ 1 := constantI S_ 1 1#1
  let main_v37 : IVec S_ 1 := (fun x v => Host.reduce IntOp.andi x v reducesTo_S60_S_d0 h_S_) main_v36 main_c_13
  let main_v38 : IVec S_ 1 := andi main_v33 main_v37
  let main_v39 : FVec F S60x60 .f32 := Host.absf main_arg8
  let main_cst_14 : FVec F S_ .f32 := constant S_ .f32 0x7F800000#32
  let main_v40 : FVec F S60x60 .f32 := broadcastInDim S60x60 ![] bcast_S_S60x60 main_cst_14
  let main_v41 : IVec S60x60 1 := cmpf .olt main_v39 main_v40
  let main_c_15 : IVec S_ 1 := constantI S_ 1 1#1
  let main_v42 : IVec S_ 1 := (fun x v => Host.reduce IntOp.andi x v reducesTo_S60x60_S_d0_1 h_S_) main_v41 main_c_15
  let main_v43 : IVec S_ 1 := andi main_v38 main_v42
  let main_v44 : FVec F S60 .f32 := Host.absf main_arg9
  let main_cst_16 : FVec F S_ .f32 := constant S_ .f32 0x7F800000#32
  let main_v45 : FVec F S60 .f32 := broadcastInDim S60 ![] bcast_S_S60 main_cst_16
  let main_v46 : IVec S60 1 := cmpf .olt main_v44 main_v45
  let main_c_17 : IVec S_ 1 := constantI S_ 1 1#1
  let main_v47 : IVec S_ 1 := (fun x v => Host.reduce IntOp.andi x v reducesTo_S60_S_d0 h_S_) main_v46 main_c_17
  let main_v48 : IVec S_ 1 := andi main_v43 main_v47
  let main_v49 : FVec F S60x60 .f32 := Host.absf main_arg10
  let main_cst_18 : FVec F S_ .f32 := constant S_ .f32 0x7F800000#32
  let main_v50 : FVec F S60x60 .f32 := broadcastInDim S60x60 ![] bcast_S_S60x60 main_cst_18
  fn_part3 (F := F) main_arg11 main_arg12 main_arg13 main_arg14 main_arg15 main_v48 main_v49 main_v50

def fn_part1 {F : FTy → Type} [FloatOps F] (main_arg4 : FVec F S60x60 .f32) (main_arg5 : FVec F S60 .f32) (main_arg6 : FVec F S60x60 .f32) (main_arg7 : FVec F S60 .f32) (main_arg8 : FVec F S60x60 .f32) (main_arg9 : FVec F S60 .f32) (main_arg10 : FVec F S60x60 .f32) (main_arg11 : FVec F S60 .f32) (main_arg12 : FVec F S60x60 .f32) (main_arg13 : FVec F S60 .f32) (main_arg14 : FVec F S1x60 .f32) (main_arg15 : FVec F S1 .f32) (main_v13 : IVec S_ 1) (main_v16 : IVec S60 1) : IVec S_ 1 :=
  let main_c_5 : IVec S_ 1 := constantI S_ 1 1#1
  let main_v17 : IVec S_ 1 := (fun x v => Host.reduce IntOp.andi x v reducesTo_S60_S_d0 h_S_) main_v16 main_c_5
  let main_v18 : IVec S_ 1 := andi main_v13 main_v17
  let main_v19 : FVec F S60x60 .f32 := Host.absf main_arg4
  let main_cst_6 : FVec F S_ .f32 := constant S_ .f32 0x7F800000#32
  let main_v20 : FVec F S60x60 .f32 := broadcastInDim S60x60 ![] bcast_S_S60x60 main_cst_6
  let main_v21 : IVec S60x60 1 := cmpf .olt main_v19 main_v20
  let main_c_7 : IVec S_ 1 := constantI S_ 1 1#1
  let main_v22 : IVec S_ 1 := (fun x v => Host.reduce IntOp.andi x v reducesTo_S60x60_S_d0_1 h_S_) main_v21 main_c_7
  let main_v23 : IVec S_ 1 := andi main_v18 main_v22
  let main_v24 : FVec F S60 .f32 := Host.absf main_arg5
  let main_cst_8 : FVec F S_ .f32 := constant S_ .f32 0x7F800000#32
  let main_v25 : FVec F S60 .f32 := broadcastInDim S60 ![] bcast_S_S60 main_cst_8
  let main_v26 : IVec S60 1 := cmpf .olt main_v24 main_v25
  let main_c_9 : IVec S_ 1 := constantI S_ 1 1#1
  let main_v27 : IVec S_ 1 := (fun x v => Host.reduce IntOp.andi x v reducesTo_S60_S_d0 h_S_) main_v26 main_c_9
  let main_v28 : IVec S_ 1 := andi main_v23 main_v27
  let main_v29 : FVec F S60x60 .f32 := Host.absf main_arg6
  let main_cst_10 : FVec F S_ .f32 := constant S_ .f32 0x7F800000#32
  let main_v30 : FVec F S60x60 .f32 := broadcastInDim S60x60 ![] bcast_S_S60x60 main_cst_10
  let main_v31 : IVec S60x60 1 := cmpf .olt main_v29 main_v30
  let main_c_11 : IVec S_ 1 := constantI S_ 1 1#1
  let main_v32 : IVec S_ 1 := (fun x v => Host.reduce IntOp.andi x v reducesTo_S60x60_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S1000000x1 .f32) (main_arg1 : FVec F S1000000x1 .f32) (main_arg2 : FVec F S60x2 .f32) (main_arg3 : FVec F S60 .f32) (main_arg4 : FVec F S60x60 .f32) (main_arg5 : FVec F S60 .f32) (main_arg6 : FVec F S60x60 .f32) (main_arg7 : FVec F S60 .f32) (main_arg8 : FVec F S60x60 .f32) (main_arg9 : FVec F S60 .f32) (main_arg10 : FVec F S60x60 .f32) (main_arg11 : FVec F S60 .f32) (main_arg12 : FVec F S60x60 .f32) (main_arg13 : FVec F S60 .f32) (main_arg14 : FVec F S1x60 .f32) (main_arg15 : FVec F S1 .f32) : IVec S_ 1 :=
  let main_v0 : FVec F S1000000x1 .f32 := Host.absf main_arg0
  let main_cst : FVec F S_ .f32 := constant S_ .f32 0x7F800000#32
  let main_v1 : FVec F S1000000x1 .f32 := broadcastInDim S1000000x1 ![] bcast_S_S1000000x1 main_cst
  let main_v2 : IVec S1000000x1 1 := cmpf .olt main_v0 main_v1
  let main_c : IVec S_ 1 := constantI S_ 1 1#1
  let main_v3 : IVec S_ 1 := (fun x v => Host.reduce IntOp.andi x v reducesTo_S1000000x1_S_d0_1 h_S_) main_v2 main_c
  let main_v4 : FVec F S1000000x1 .f32 := Host.absf main_arg1
  let main_cst_0 : FVec F S_ .f32 := constant S_ .f32 0x7F800000#32
  let main_v5 : FVec F S1000000x1 .f32 := broadcastInDim S1000000x1 ![] bcast_S_S1000000x1 main_cst_0
  let main_v6 : IVec S1000000x1 1 := cmpf .olt main_v4 main_v5
  let main_c_1 : IVec S_ 1 := constantI S_ 1 1#1
  let main_v7 : IVec S_ 1 := (fun x v => Host.reduce IntOp.andi x v reducesTo_S1000000x1_S_d0_1 h_S_) main_v6 main_c_1
  let main_v8 : IVec S_ 1 := andi main_v3 main_v7
  let main_v9 : FVec F S60x2 .f32 := Host.absf main_arg2
  let main_cst_2 : FVec F S_ .f32 := constant S_ .f32 0x7F800000#32
  let main_v10 : FVec F S60x2 .f32 := broadcastInDim S60x2 ![] bcast_S_S60x2 main_cst_2
  let main_v11 : IVec S60x2 1 := cmpf .olt main_v9 main_v10
  let main_c_3 : IVec S_ 1 := constantI S_ 1 1#1
  let main_v12 : IVec S_ 1 := (fun x v => Host.reduce IntOp.andi x v reducesTo_S60x2_S_d0_1 h_S_) main_v11 main_c_3
  let main_v13 : IVec S_ 1 := andi main_v8 main_v12
  let main_v14 : FVec F S60 .f32 := Host.absf main_arg3
  let main_cst_4 : FVec F S_ .f32 := constant S_ .f32 0x7F800000#32
  let main_v15 : FVec F S60 .f32 := broadcastInDim S60 ![] bcast_S_S60 main_cst_4
  let main_v16 : IVec S60 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S1000000x1 : Shape := ⟨2, ![1000000, 1]⟩
abbrev S60x2 : Shape := ⟨2, ![60, 2]⟩
abbrev S60 : Shape := ⟨1, ![60]⟩
abbrev S60x60 : Shape := ⟨2, ![60, 60]⟩
abbrev S1x60 : Shape := ⟨2, ![1, 60]⟩
abbrev S1 : Shape := ⟨1, ![1]⟩
abbrev S2x60 : Shape := ⟨2, ![2, 60]⟩
abbrev S60x1 : Shape := ⟨2, ![60, 1]⟩
abbrev S1x1 : Shape := ⟨2, ![1, 1]⟩
abbrev S20000x1 : Shape := ⟨2, ![20000, 1]⟩
abbrev S20000x2 : Shape := ⟨2, ![20000, 2]⟩
abbrev S20000x60 : Shape := ⟨2, ![20000, 60]⟩

abbrev nBuf : Space → Nat
  | .hbm => 31
  | .vmem => 20
  | .smem => 0
  | _ => 0

abbrev bufTy : (tb : Table) → Fin (tcTables nBuf tb) → BufTy
  | .hbm, ⟨0, _⟩ => ⟨S1000000x1, .f32⟩
  | .hbm, ⟨1, _⟩ => ⟨S1000000x1, .f32⟩
  | .hbm, ⟨2, _⟩ => ⟨S60x2, .f32⟩
  | .hbm, ⟨3, _⟩ => ⟨S60, .f32⟩
  | .hbm, ⟨4, _⟩ => ⟨S60x60, .f32⟩
  | .hbm, ⟨5, _⟩ => ⟨S60, .f32⟩
  | .hbm, ⟨6, _⟩ => ⟨S60x60, .f32⟩
  | .hbm, ⟨7, _⟩ => ⟨S60, .f32⟩
  | .hbm, ⟨8, _⟩ => ⟨S60x60, .f32⟩
  | .hbm, ⟨9, _⟩ => ⟨S60, .f32⟩
  | .hbm, ⟨10, _⟩ => ⟨S60x60, .f32⟩
  | .hbm, ⟨11, _⟩ => ⟨S60, .f32⟩
  | .hbm, ⟨12, _⟩ => ⟨S60x60, .f32⟩
  | .hbm, ⟨13, _⟩ => ⟨S60, .f32⟩
  | .hbm, ⟨14, _⟩ => ⟨S1x60, .f32⟩
  | .hbm, ⟨15, _⟩ => ⟨S1, .f32⟩
  | .hbm, ⟨16, _⟩ => ⟨S2x60, .f32⟩
  | .hbm, ⟨17, _⟩ => ⟨S60x60, .f32⟩
  | .hbm, ⟨18, _⟩ => ⟨S60x60, .f32⟩
  | .hbm, ⟨19, _⟩ => ⟨S60x60, .f32⟩
  | .hbm, ⟨20, _⟩ => ⟨S60x60, .f32⟩
  | .hbm, ⟨21, _⟩ => ⟨S60x60, .f32⟩
  | .hbm, ⟨22, _⟩ => ⟨S60x1, .f32⟩
  | .hbm, ⟨23, _⟩ => ⟨S1x60, .f32⟩
  | .hbm, ⟨24, _⟩ => ⟨S1x60, .f32⟩
  | .hbm, ⟨25, _⟩ => ⟨S1x60, .f32⟩
  | .hbm, ⟨26, _⟩ => ⟨S1x60, .f32⟩
  | .hbm, ⟨27, _⟩ => ⟨S1x60, .f32⟩
  | .hbm, ⟨28, _⟩ => ⟨S1x60, .f32⟩
  | .hbm, ⟨29, _⟩ => ⟨S1x1, .f32⟩
  | .hbm, ⟨30, _⟩ => ⟨S1000000x1, .f32⟩
  | .local _ .vmem, ⟨0, _⟩ => ⟨S20000x1, .f32⟩
  | .local _ .vmem, ⟨1, _⟩ => ⟨S20000x1, .f32⟩
  | .local _ .vmem, ⟨2, _⟩ => ⟨S20000x1, .f32⟩
  | .local _ .vmem, ⟨3, _⟩ => ⟨S20000x1, .f32⟩
  | .local _ .vmem, ⟨4, _⟩ => ⟨S2x60, .f32⟩
  | .local _ .vmem, ⟨5, _⟩ => ⟨S1x60, .f32⟩
  | .local _ .vmem, ⟨6, _⟩ => ⟨S60x60, .f32⟩
  | .local _ .vmem, ⟨7, _⟩ => ⟨S1x60, .f32⟩
  | .local _ .vmem, ⟨8, _⟩ => ⟨S60x60, .f32⟩
  | .local _ .vmem, ⟨9, _⟩ => ⟨S1x60, .f32⟩
  | .local _ .vmem, ⟨10, _⟩ => ⟨S60x60, .f32⟩
  | .local _ .vmem, ⟨11, _⟩ => ⟨S1x60, .f32⟩
  | .local _ .vmem, ⟨12, _⟩ => ⟨S60x60, .f32⟩
  | .local _ .vmem, ⟨13, _⟩ => ⟨S1x60, .f32⟩
  | .local _ .vmem, ⟨14, _⟩ => ⟨S60x60, .f32⟩
  | .local _ .vmem, ⟨15, _⟩ => ⟨S1x60, .f32⟩
  | .local _ .vmem, ⟨16, _⟩ => ⟨S60x1, .f32⟩
  | .local _ .vmem, ⟨17, _⟩ => ⟨S1x1, .f32⟩
  | .local _ .vmem, ⟨18, _⟩ => ⟨S20000x1, .f32⟩
  | .local _ .vmem, ⟨19, _⟩ => ⟨S20000x1, .f32⟩
  | _, _ => ⟨S1000000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x60 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x60 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S60x60 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x60 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S60x60 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x60 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S60x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x60 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S60x60 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x60 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S60x60 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x60 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S60x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S20000x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  transposes_S60x2_S2x60_1_0 : S60x2.Transposes [1, 0] S2x60
  transposes_S60x60_S60x60_1_0 : S60x60.Transposes [1, 0] S60x60
  transposes_S1x60_S60x1_1_0 : S1x60.Transposes [1, 0] S60x1
  shapeCasts_S60_S1x60 : S60.ShapeCasts S1x60
  shapeCasts_S1_S1x1 : S1.ShapeCasts S1x1
  inb_S20000x1_S20000x1_0_0 : ∀ a, (![0, 0] : Fin 2 → Nat) a + S20000x1.size a ≤ S20000x1.size a
  h_S20000x1 : 0 < S20000x1.numel
  concatenates_S20000x1_S20000x1_S20000x2_d1 : Shape.Concatenates [S20000x1, S20000x1] S20000x2 1
  inb_S2x60_S2x60_0_0 : ∀ a, (![0, 0] : Fin 2 → Nat) a + S2x60.size a ≤ S2x60.size a
  h_S2x60 : 0 < S2x60.numel
  shapeCasts_S2x60_S2x60 : S2x60.ShapeCasts S2x60
  inb_S1x60_S1x60_0_0 : ∀ a, (![0, 0] : Fin 2 → Nat) a + S1x60.size a ≤ S1x60.size a
  h_S1x60 : 0 < S1x60.numel
  shapeCasts_S1x60_S1x60 : S1x60.ShapeCasts S1x60
  broadcasts_S1x60_S20000x60 : S1x60.Broadcasts S20000x60
  inb_S60x60_S60x60_0_0 : ∀ a, (![0, 0] : Fin 2 → Nat) a + S60x60.size a ≤ S60x60.size a
  h_S60x60 : 0 < S60x60.numel
  shapeCasts_S60x60_S60x60 : S60x60.ShapeCasts S60x60
  inb_S60x1_S60x1_0_0 : ∀ a, (![0, 0] : Fin 2 → Nat) a + S60x1.size a ≤ S60x1.size a
  h_S60x1 : 0 < S60x1.numel
  shapeCasts_S60x1_S60x1 : S60x1.ShapeCasts S60x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S20000x1 : S1x1.Broadcasts S20000x1
  dot_S20000x2_S2x60_S20000x60_1_0_0_1_n_n_wf : DotDims.WF S20000x2 S2x60 S20000x60 [1] [0] [0] [1] [] []
  dot_S20000x60_S60x60_S20000x60_1_0_0_1_n_n_wf : DotDims.WF S20000x60 S60x60 S20000x60 [1] [0] [0] [1] [] []
  dot_S20000x60_S60x1_S20000x1_1_0_0_1_n_n_wf : DotDims.WF S20000x60 S60x1 S20000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x1.size a ≤ S1000000x1.size a
  hwx0_0 : ∀ i : grid0.Coords, EltTy.bits .f32 = 32 ∨ (Rect.block (s := S1000000x1) S20000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S1000000x1.size a
  hwx0_1 : ∀ i : grid0.Coords, EltTy.bits .f32 = 32 ∨ (Rect.block (s := S1000000x1) S20000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x60.size a ≤ S2x60.size a
  hwx0_2 : ∀ i : grid0.Coords, EltTy.bits .f32 = 32 ∨ (Rect.block (s := S2x60) S2x60.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x60.size a ≤ S1x60.size a
  hwx0_3 : ∀ i : grid0.Coords, EltTy.bits .f32 = 32 ∨ (Rect.block (s := S1x60) S1x60.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S60x60.size a ≤ S60x60.size a
  hwx0_4 : ∀ i : grid0.Coords, EltTy.bits .f32 = 32 ∨ (Rect.block (s := S60x60) S60x60.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x60.size a ≤ S1x60.size a
  hwx0_5 : ∀ i : grid0.Coords, EltTy.bits .f32 = 32 ∨ (Rect.block (s := S1x60) S1x60.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S60x60.size a ≤ S60x60.size a
  hwx0_6 : ∀ i : grid0.Coords, EltTy.bits .f32 = 32 ∨ (Rect.block (s := S60x60) S60x60.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x60.size a ≤ S1x60.size a
  hwx0_7 : ∀ i : grid0.Coords, EltTy.bits .f32 = 32 ∨ (Rect.block (s := S1x60) S1x60.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S60x60.size a ≤ S60x60.size a
  hwx0_8 : ∀ i : grid0.Coords, EltTy.bits .f32 = 32 ∨ (Rect.block (s := S60x60) S60x60.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x60.size a ≤ S1x60.size a
  hwx0_9 : ∀ i : grid0.Coords, EltTy.bits .f32 = 32 ∨ (Rect.block (s := S1x60) S1x60.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S60x60.size a ≤ S60x60.size a
  hwx0_10 : ∀ i : grid0.Coords, EltTy.bits .f32 = 32 ∨ (Rect.block (s := S60x60) S60x60.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x60.size a ≤ S1x60.size a
  hwx0_11 : ∀ i : grid0.Coords, EltTy.bits .f32 = 32 ∨ (Rect.block (s := S1x60) S1x60.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S60x60.size a ≤ S60x60.size a
  hwx0_12 : ∀ i : grid0.Coords, EltTy.bits .f32 = 32 ∨ (Rect.block (s := S60x60) S60x60.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x60.size a ≤ S1x60.size a
  hwx0_13 : ∀ i : grid0.Coords, EltTy.bits .f32 = 32 ∨ (Rect.block (s := S1x60) S1x60.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S60x1.size a ≤ S60x1.size a
  hwx0_14 : ∀ i : grid0.Coords, EltTy.bits .f32 = 32 ∨ (Rect.block (s := S60x1) S60x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S20000x1.size a ≤ S1000000x1.size a
  hwx0_16 : ∀ i : grid0.Coords, EltTy.bits .f32 = 32 ∨ (Rect.block (s := S1000000x1) S20000x1.size (cc0_transform_16 i) (hinb0_16 i)).WholeWords (EltTy.packing .f32)

variable [Facts₀]

def dot_S20000x2_S2x60_S20000x60_1_0_0_1_n_n : DotDims S20000x2 S2x60 S20000x60 where
  lhsContracting := [1]
  rhsContracting := [0]
  lhsNonContracting := [0]
  rhsNonContracting := [1]
  lhsBatch := []
  rhsBatch := []
  wf := dot_S20000x2_S2x60_S20000x60_1_0_0_1_n_n_wf
def dot_S20000x60_S60x60_S20000x60_1_0_0_1_n_n : DotDims S20000x60 S60x60 S20000x60 where
  lhsContracting := [1]
  rhsContracting := [0]
  lhsNonContracting := [0]
  rhsNonContracting := [1]
  lhsBatch := []
  rhsBatch := []
  wf := dot_S20000x60_S60x60_S20000x60_1_0_0_1_n_n_wf
def dot_S20000x60_S60x1_S20000x1_1_0_0_1_n_n : DotDims S20000x60 S60x1 S20000x1 where
  lhsContracting := [1]
  rhsContracting := [0]
  lhsNonContracting := [0]
  rhsNonContracting := [1]
  lhsBatch := []
  rhsBatch := []
  wf := dot_S20000x60_S60x1_S20000x1_1_0_0_1_n_n_wf

abbrev win0_0 : Pipeline.Window sig grid0 :=
  Pipeline.Window.ofSpec (Memref.whole main_arg0) S20000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x60.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x60.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S60x60.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x60.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S60x60.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x60.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S60x60.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x60.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S60x60.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x60.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S60x60.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x60.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S60x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v14) S20000x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S1000000x1 : Shape := ⟨2, ![1000000, 1]⟩
abbrev S60x2 : Shape := ⟨2, ![60, 2]⟩
abbrev S60 : Shape := ⟨1, ![60]⟩
abbrev S60x60 : Shape := ⟨2, ![60, 60]⟩
abbrev S1x60 : Shape := ⟨2, ![1, 60]⟩
abbrev S1 : Shape := ⟨1, ![1]⟩
abbrev S1000000x2 : Shape := ⟨2, ![1000000, 2]⟩
abbrev S2x60 : Shape := ⟨2, ![2, 60]⟩
abbrev S1000000x60 : Shape := ⟨2, ![1000000, 60]⟩
abbrev S_ : Shape := ⟨0, ![]⟩
abbrev S60x1 : Shape := ⟨2, ![60, 1]⟩
abbrev S1x1 : Shape := ⟨2, ![1, 1]⟩

abbrev nBuf : Space → Nat
  | .hbm => 106
  | .vmem => 0
  | .smem => 0
  | _ => 0

abbrev bufTy : (tb : Table) → Fin (tcTables nBuf tb) → BufTy
  | .hbm, ⟨0, _⟩ => ⟨S1000000x1, .f32⟩
  | .hbm, ⟨1, _⟩ => ⟨S1000000x1, .f32⟩
  | .hbm, ⟨2, _⟩ => ⟨S60x2, .f32⟩
  | .hbm, ⟨3, _⟩ => ⟨S60, .f32⟩
  | .hbm, ⟨4, _⟩ => ⟨S60x60, .f32⟩
  | .hbm, ⟨5, _⟩ => ⟨S60, .f32⟩
  | .hbm, ⟨6, _⟩ => ⟨S60x60, .f32⟩
  | .hbm, ⟨7, _⟩ => ⟨S60, .f32⟩
  | .hbm, ⟨8, _⟩ => ⟨S60x60, .f32⟩
  | .hbm, ⟨9, _⟩ => ⟨S60, .f32⟩
  | .hbm, ⟨10, _⟩ => ⟨S60x60, .f32⟩
  | .hbm, ⟨11, _⟩ => ⟨S60, .f32⟩
  | .hbm, ⟨12, _⟩ => ⟨S60x60, .f32⟩
  | .hbm, ⟨13, _⟩ => ⟨S60, .f32⟩
  | .hbm, ⟨14, _⟩ => ⟨S1x60, .f32⟩
  | .hbm, ⟨15, _⟩ => ⟨S1, .f32⟩
  | .hbm, ⟨16, _⟩ => ⟨S1000000x2, .f32⟩
  | .hbm, ⟨17, _⟩ => ⟨S2x60, .f32⟩
  | .hbm, ⟨18, _⟩ => ⟨S1000000x60, .f32⟩
  | .hbm, ⟨19, _⟩ => ⟨S1x60, .f32⟩
  | .hbm, ⟨20, _⟩ => ⟨S1000000x60, .f32⟩
  | .hbm, ⟨21, _⟩ => ⟨S1000000x60, .f32⟩
  | .hbm, ⟨22, _⟩ => ⟨S1000000x60, .f32⟩
  | .hbm, ⟨23, _⟩ => ⟨S1000000x60, .f32⟩
  | .hbm, ⟨24, _⟩ => ⟨S_, .f32⟩
  | .hbm, ⟨25, _⟩ => ⟨S1000000x60, .f32⟩
  | .hbm, ⟨26, _⟩ => ⟨S1000000x60, .f32⟩
  | .hbm, ⟨27, _⟩ => ⟨S_, .f32⟩
  | .hbm, ⟨28, _⟩ => ⟨S1000000x60, .f32⟩
  | .hbm, ⟨29, _⟩ => ⟨S1000000x60, .f32⟩
  | .hbm, ⟨30, _⟩ => ⟨S1000000x60, .f32⟩
  | .hbm, ⟨31, _⟩ => ⟨S60x60, .f32⟩
  | .hbm, ⟨32, _⟩ => ⟨S1000000x60, .f32⟩
  | .hbm, ⟨33, _⟩ => ⟨S1x60, .f32⟩
  | .hbm, ⟨34, _⟩ => ⟨S1000000x60, .f32⟩
  | .hbm, ⟨35, _⟩ => ⟨S1000000x60, .f32⟩
  | .hbm, ⟨36, _⟩ => ⟨S1000000x60, .f32⟩
  | .hbm, ⟨37, _⟩ => ⟨S1000000x60, .f32⟩
  | .hbm, ⟨38, _⟩ => ⟨S_, .f32⟩
  | .hbm, ⟨39, _⟩ => ⟨S1000000x60, .f32⟩
  | .hbm, ⟨40, _⟩ => ⟨S1000000x60, .f32⟩
  | .hbm, ⟨41, _⟩ => ⟨S_, .f32⟩
  | .hbm, ⟨42, _⟩ => ⟨S1000000x60, .f32⟩
  | .hbm, ⟨43, _⟩ => ⟨S1000000x60, .f32⟩
  | .hbm, ⟨44, _⟩ => ⟨S1000000x60, .f32⟩
  | .hbm, ⟨45, _⟩ => ⟨S60x60, .f32⟩
  | .hbm, ⟨46, _⟩ => ⟨S1000000x60, .f32⟩
  | .hbm, ⟨47, _⟩ => ⟨S1x60, .f32⟩
  | .hbm, ⟨48, _⟩ => ⟨S1000000x60, .f32⟩
  | .hbm, ⟨49, _⟩ => ⟨S1000000x60, .f32⟩
  | .hbm, ⟨50, _⟩ => ⟨S1000000x60, .f32⟩
  | .hbm, ⟨51, _⟩ => ⟨S1000000x60, .f32⟩
  | .hbm, ⟨52, _⟩ => ⟨S_, .f32⟩
  | .hbm, ⟨53, _⟩ => ⟨S1000000x60, .f32⟩
  | .hbm, ⟨54, _⟩ => ⟨S1000000x60, .f32⟩
  | .hbm, ⟨55, _⟩ => ⟨S_, .f32⟩
  | .hbm, ⟨56, _⟩ => ⟨S1000000x60, .f32⟩
  | .hbm, ⟨57, _⟩ => ⟨S1000000x60, .f32⟩
  | .hbm, ⟨58, _⟩ => ⟨S1000000x60, .f32⟩
  | .hbm, ⟨59, _⟩ => ⟨S60x60, .f32⟩
  | .hbm, ⟨60, _⟩ => ⟨S1000000x60, .f32⟩
  | .hbm, ⟨61, _⟩ => ⟨S1x60, .f32⟩
  | .hbm, ⟨62, _⟩ => ⟨S1000000x60, .f32⟩
  | .hbm, ⟨63, _⟩ => ⟨S1000000x60, .f32⟩
  | .hbm, ⟨64, _⟩ => ⟨S1000000x60, .f32⟩
  | .hbm, ⟨65, _⟩ => ⟨S1000000x60, .f32⟩
  | .hbm, ⟨66, _⟩ => ⟨S_, .f32⟩
  | .hbm, ⟨67, _⟩ => ⟨S1000000x60, .f32⟩
  | .hbm, ⟨68, _⟩ => ⟨S1000000x60, .f32⟩
  | .hbm, ⟨69, _⟩ => ⟨S_, .f32⟩
  | .hbm, ⟨70, _⟩ => ⟨S1000000x60, .f32⟩
  | .hbm, ⟨71, _⟩ => ⟨S1000000x60, .f32⟩
  | .hbm, ⟨72, _⟩ => ⟨S1000000x60, .f32⟩
  | .hbm, ⟨73, _⟩ => ⟨S60x60, .f32⟩
  | .hbm, ⟨74, _⟩ => ⟨S1000000x60, .f32⟩
  | .hbm, ⟨75, _⟩ => ⟨S1x60, .f32⟩
  | .hbm, ⟨76, _⟩ => ⟨S1000000x60, .f32⟩
  | .hbm, ⟨77, _⟩ => ⟨S1000000x60, .f32⟩
  | .hbm, ⟨78, _⟩ => ⟨S1000000x60, .f32⟩
  | .hbm, ⟨79, _⟩ => ⟨S1000000x60, .f32⟩
  | .hbm, ⟨80, _⟩ => ⟨S_, .f32⟩
  | .hbm, ⟨81, _⟩ => ⟨S1000000x60, .f32⟩
  | .hbm, ⟨82, _⟩ => ⟨S1000000x60, .f32⟩
  | .hbm, ⟨83, _⟩ => ⟨S_, .f32⟩
  | .hbm, ⟨84, _⟩ => ⟨S1000000x60, .f32⟩
  | .hbm, ⟨85, _⟩ => ⟨S1000000x60, .f32⟩
  | .hbm, ⟨86, _⟩ => ⟨S1000000x60, .f32⟩
  | .hbm, ⟨87, _⟩ => ⟨S60x60, .f32⟩
  | .hbm, ⟨88, _⟩ => ⟨S1000000x60, .f32⟩
  | .hbm, ⟨89, _⟩ => ⟨S1x60, .f32⟩
  | .hbm, ⟨90, _⟩ => ⟨S1000000x60, .f32⟩
  | .hbm, ⟨91, _⟩ => ⟨S1000000x60, .f32⟩
  | .hbm, ⟨92, _⟩ => ⟨S1000000x60, .f32⟩
  | .hbm, ⟨93, _⟩ => ⟨S1000000x60, .f32⟩
  | .hbm, ⟨94, _⟩ => ⟨S_, .f32⟩
  | .hbm, ⟨95, _⟩ => ⟨S1000000x60, .f32⟩
  | .hbm, ⟨96, _⟩ => ⟨S1000000x60, .f32⟩
  | .hbm, ⟨97, _⟩ => ⟨S_, .f32⟩
  | .hbm, ⟨98, _⟩ => ⟨S1000000x60, .f32⟩
  | .hbm, ⟨99, _⟩ => ⟨S1000000x60, .f32⟩
  | .hbm, ⟨100, _⟩ => ⟨S1000000x60, .f32⟩
  | .hbm, ⟨101, _⟩ => ⟨S60x1, .f32⟩
  | .hbm, ⟨102, _⟩ => ⟨S1000000x1, .f32⟩
  | .hbm, ⟨103, _⟩ => ⟨S1x1, .f32⟩
  | .hbm, ⟨104, _⟩ => ⟨S1000000x1, .f32⟩
  | .hbm, ⟨105, _⟩ => ⟨S1000000x1, .f32⟩
  | _, _ => ⟨S1000000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_call2_v0 : Ref sig .tc := ⟨.hbm, 50, rfl⟩
abbrev main_call2_v1 : Ref sig .tc := ⟨.hbm, 51, rfl⟩
abbrev main_call2_cst : Ref sig .tc := ⟨.hbm, 52, rfl⟩
abbrev main_call2_v2 : Ref sig .tc := ⟨.hbm, 53, rfl⟩
abbrev main_call2_v3 : Ref sig .tc := ⟨.hbm, 54, rfl⟩
abbrev main_call2_cst_0 : Ref sig .tc := ⟨.hbm, 55, rfl⟩
abbrev main_call2_v4 : Ref sig .tc := ⟨.hbm, 56, rfl⟩
abbrev main_call2_v5 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_call3_v0 : Ref sig .tc := ⟨.hbm, 64, rfl⟩
abbrev main_call3_v1 : Ref sig .tc := ⟨.hbm, 65, rfl⟩
abbrev main_call3_cst : Ref sig .tc := ⟨.hbm, 66, rfl⟩
abbrev main_call3_v2 : Ref sig .tc := ⟨.hbm, 67, rfl⟩
abbrev main_call3_v3 : Ref sig .tc := ⟨.hbm, 68, rfl⟩
abbrev main_call3_cst_0 : Ref sig .tc := ⟨.hbm, 69, rfl⟩
abbrev main_call3_v4 : Ref sig .tc := ⟨.hbm, 70, rfl⟩
abbrev main_call3_v5 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_call5_v0 : Ref sig .tc := ⟨.hbm, 92, rfl⟩
abbrev main_call5_v1 : Ref sig .tc := ⟨.hbm, 93, rfl⟩
abbrev main_call5_cst : Ref sig .tc := ⟨.hbm, 94, rfl⟩
abbrev main_call5_v2 : Ref sig .tc := ⟨.hbm, 95, rfl⟩
abbrev main_call5_v3 : Ref sig .tc := ⟨.hbm, 96, rfl⟩
abbrev main_call5_cst_0 : Ref sig .tc := ⟨.hbm, 97, rfl⟩
abbrev main_call5_v4 : Ref sig .tc := ⟨.hbm, 98, rfl⟩
abbrev main_call5_v5 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩

abbrev nD : Nat := 1
abbrev τ : Topo := Topo.v7x

variable {F : FTy → Type} [FloatOps F]

class Facts₀ : Prop where
  concatenates_S1000000x1_S1000000x1_S1000000x2_d1 : Shape.Concatenates [S1000000x1, S1000000x1] S1000000x2 1
  transposes_S60x2_S2x60_1_0 : S60x2.Transposes [1, 0] S2x60
  bcast_S60_S1x60_1 : S60.BroadcastsInDim S1x60 (![1] : Fin 1 → Fin S1x60.rank)
  bcast_S1x60_S1000000x60_0_1 : S1x60.BroadcastsInDim S1000000x60 (![0, 1] : Fin 2 → Fin S1000000x60.rank)
  bcast_S_S1000000x60 : S_.BroadcastsInDim S1000000x60 (![] : Fin 0 → Fin S1000000x60.rank)
  transposes_S60x60_S60x60_1_0 : S60x60.Transposes [1, 0] S60x60
  transposes_S1x60_S60x1_1_0 : S1x60.Transposes [1, 0] S60x1
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  dot_S1000000x2_S2x60_S1000000x60_1_0_0_1_n_n_wf : DotDims.WF S1000000x2 S2x60 S1000000x60 [1] [0] [0] [1] [] []
  dot_S1000000x60_S60x60_S1000000x60_1_0_0_1_n_n_wf : DotDims.WF S1000000x60 S60x60 S1000000x60 [1] [0] [0] [1] [] []
  dot_S1000000x60_S60x1_S1000000x1_1_0_0_1_n_n_wf : DotDims.WF S1000000x60 S60x1 S1000000x1 [1] [0] [0] [1] [] []

variable [Facts₀]

def dot_S1000000x2_S2x60_S1000000x60_1_0_0_1_n_n : DotDims S1000000x2 S2x60 S1000000x60 where
  lhsContracting := [1]
  rhsContracting := [0]
  lhsNonContracting := [0]
  rhsNonContracting := [1]
  lhsBatch := []
  rhsBatch := []
  wf := dot_S1000000x2_S2x60_S1000000x60_1_0_0_1_n_n_wf
def dot_S1000000x60_S60x60_S1000000x60_1_0_0_1_n_n : DotDims S1000000x60 S60x60 S1000000x60 where
  lhsContracting := [1]
  rhsContracting := [0]
  lhsNonContracting := [0]
  rhsNonContracting := [1]
  lhsBatch := []
  rhsBatch := []
  wf := dot_S1000000x60_S60x60_S1000000x60_1_0_0_1_n_n_wf
def dot_S1000000x60_S60x1_S1000000x1_1_0_0_1_n_n : DotDims S1000000x60 S60x1 S1000000x1 where
  lhsContracting := [1]
  rhsContracting := [0]
  lhsNonContracting := [0]
  rhsNonContracting := [1]
  lhsBatch := []
  rhsBatch := []
  wf := dot_S1000000x60_S60x1_S1000000x1_1_0_0_1_n_n_wf

class Facts : Prop extends Facts₀ where

variable [Facts]
-- ==== Proof.SiluNet.lean ====
/-
  The function both programs compute, on ONE input row, over the extended reals.

  A row is a pair of numbers `(a, b)`. Seven affine maps follow one another; after each of the first six comes
  SiLU, `v ↦ v · 1 / (1 + e^{-v})`. An affine map with weights `w k j` (input feature `k`, output feature `j`) and bias
  `b j` sends a row `h` to `j ↦ ∑ₖ h k · w k j + b j`. The widths are 2 → 60 → 60 → 60 → 60 → 60 → 60 → 1.

  The weights enter as functions of two coordinates and the biases as functions of one, so that the kernel (which
  reads transposed and re-laid copies of the parameter arrays) and the reference (which reads the parameter arrays
  through its own transposes and broadcasts) instantiate the SAME term; no law of arithmetic is needed between the two
  sides beyond that identity, and finiteness of the inputs is never used.
-/
import Idealize.ShloMosaic.PureOps.Ideal
import Idealize.ShloMosaic.PureOps.Ideal.Laws

noncomputable section

open scoped BigOperators

namespace Cert.SiluNet

open Idealize.ShloMosaic

/-- The f32 word `0x3F800000` denotes the number one. -/
theorem ofBits_one_f32 : Ideal.ofBits .f32 0x3F800000#32 = 1 := by
  simp [Ideal.ofBits, Ideal.ieee, -EReal.coe_mul]; norm_num

/-- SiLU on the extended reals: `v · logistic v`, with `logistic v = 1 / (1 + e^{-v})`. -/
def silu (v : EReal) : EReal := v * Ideal.logistic v

/-- A vector unit's spelling of SiLU, one `logistic` operation and a product, is `silu`. -/
theorem silu_of_logistic (v : Ideal .f32) : FloatOps.mulf v (FloatOps.logistic v) = silu v := rfl

/-- The spelled-out form, negate, exponential, add one, divide one by it, multiply, is `silu` too: `logistic` IS
    that quotient on the extended reals, and the word for the two ones denotes 1. -/
theorem silu_of_quotient (v : Ideal .f32) :
    FloatOps.mulf v (FloatOps.hostDivf (FloatOps.ofBits .f32 0x3F800000#32)
      (FloatOps.addf (FloatOps.ofBits .f32 0x3F800000#32) (FloatOps.hostUnary .exp (FloatOps.hostNegf v)))) = silu v := by
  show v * Ideal.div (Ideal.ofBits .f32 0x3F800000#32) (Ideal.ofBits .f32 0x3F800000#32 + Ideal.exp (-v)) = v * Ideal.logistic v
  rw [ofBits_one_f32]
  rfl

/-- An affine map of a row: output feature `j` is `∑ₖ h k · w k j + b j`. -/
def affine {K J : ℕ} (w : Fin K → Fin J → EReal) (b : Fin J → EReal) (h : Fin K → EReal) (j : Fin J) : EReal :=
  ∑ k : Fin K, h k * w k j + b j

/-- A hidden layer: the affine map, then SiLU feature by feature. -/
def hidden {K J : ℕ} (w : Fin K → Fin J → EReal) (b : Fin J → EReal) (h : Fin K → EReal) : Fin J → EReal :=
  fun j => silu (affine w b h j)

/-- The input row `(a, b)` as a function of the feature. -/
def pair (a b : EReal) : Fin 2 → EReal := fun k => if k.val = 0 then a else b

/-- The whole network on one row: six hidden layers and a last affine map onto one feature. -/
def net (w1 : Fin 2 → Fin 60 → EReal) (b1 : Fin 60 → EReal) (w2 : Fin 60 → Fin 60 → EReal) (b2 : Fin 60 → EReal)
    (w3 : Fin 60 → Fin 60 → EReal) (b3 : Fin 60 → EReal) (w4 : Fin 60 → Fin 60 → EReal) (b4 : Fin 60 → EReal)
    (w5 : Fin 60 → Fin 60 → EReal) (b5 : Fin 60 → EReal) (w6 : Fin 60 → Fin 60 → EReal) (b6 : Fin 60 → EReal)
    (w7 : Fin 60 → Fin 1 → EReal) (b7 : Fin 1 → EReal) (h0 : Fin 2 → EReal) : EReal :=
  affine w7 b7 (hidden w6 b6 (hidden w5 b5 (hidden w4 b4 (hidden w3 b3 (hidden w2 b2 (hidden w1 b1 h0)))))) 0

end Cert.SiluNet

end
-- ==== Proof.BlockLayers.lean ====
/-
  One block of 20000 rows, as the kernel body computes it, read at an element over the extended reals.

  The body joins the two input columns into rows of width 2 and then applies, seven times, a matrix product into a zero
  accumulator followed by the addition of a bias row broadcast over the block; after each of the first six it multiplies
  the result by its `logistic`. Read at row `r` and feature `j`, a product is `∑ₖ h[r,k] · w[k,j]` and the broadcast
  bias is `b[0,j]`, so each layer is `SiluNet.hidden` (the last one `SiluNet.affine`) of row `r` of the layer before,
  with weights `w[k,j]` and bias `b[0,j]` taken from the body's loaded parameter blocks as they are.
-/
import proofs.«180178_j45535243272834_1_alg».proof.Proof.Gen.KernelIdeal.Skeleton
import proofs.«180178_j45535243272834_1_alg».proof.Proof.SiluNet
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockRows

open Cert.KernelIdeal Cert.KernelIdeal.Gen Idealize.ShloMosaic Idealize.ShloMosaic.ValueIdx Cert.SiluNet

/-! ## Where a product's operands are read: the left operand at (row, k), the right at (k, column) -/

theorem lhs_in_0 (i : S20000x60.Idx) (q : dot_S20000x2_S2x60_S20000x60_1_0_0_1_n_n.contr.Idx) :
    (dot_S20000x2_S2x60_S20000x60_1_0_0_1_n_n.lhsIdx i q 0).val = (i 0).val := by
  unfold DotDims.lhsIdx
  rw [dif_neg (show ¬(0 : Fin S20000x2.rank) ∈ dot_S20000x2_S2x60_S20000x60_1_0_0_1_n_n.lhsBatch by decide), dif_pos (show (0 : Fin S20000x2.rank) ∈ dot_S20000x2_S2x60_S20000x60_1_0_0_1_n_n.lhsNonContracting by decide)]
  rfl
theorem lhs_in_1 (i : S20000x60.Idx) (q : dot_S20000x2_S2x60_S20000x60_1_0_0_1_n_n.contr.Idx) :
    (dot_S20000x2_S2x60_S20000x60_1_0_0_1_n_n.lhsIdx i q 1).val = (q ⟨0, by decide⟩).val :=
  dot_S20000x2_S2x60_S20000x60_1_0_0_1_n_n.lhsIdx_val_of_single rfl i q
theorem rhs_in_0 (i : S20000x60.Idx) (q : dot_S20000x2_S2x60_S20000x60_1_0_0_1_n_n.contr.Idx) :
    (dot_S20000x2_S2x60_S20000x60_1_0_0_1_n_n.rhsIdx i q 0).val = (q ⟨0, by decide⟩).val :=
  dot_S20000x2_S2x60_S20000x60_1_0_0_1_n_n.rhsIdx_val_of_single rfl i q
theorem rhs_in_1 (i : S20000x60.Idx) (q : dot_S20000x2_S2x60_S20000x60_1_0_0_1_n_n.contr.Idx) :
    (dot_S20000x2_S2x60_S20000x60_1_0_0_1_n_n.rhsIdx i q 1).val = (i 1).val := by
  unfold DotDims.rhsIdx
  rw [dif_neg (show ¬(1 : Fin S2x60.rank) ∈ dot_S20000x2_S2x60_S20000x60_1_0_0_1_n_n.rhsBatch by decide), dif_pos (show (1 : Fin S2x60.rank) ∈ dot_S20000x2_S2x60_S20000x60_1_0_0_1_n_n.rhsNonContracting by decide)]
  rfl

theorem lhs_hid_0 (i : S20000x60.Idx) (q : dot_S20000x60_S60x60_S20000x60_1_0_0_1_n_n.contr.Idx) :
    (dot_S20000x60_S60x60_S20000x60_1_0_0_1_n_n.lhsIdx i q 0).val = (i 0).val := by
  unfold DotDims.lhsIdx
  rw [dif_neg (show ¬(0 : Fin S20000x60.rank) ∈ dot_S20000x60_S60x60_S20000x60_1_0_0_1_n_n.lhsBatch by decide), dif_pos (show (0 : Fin S20000x60.rank) ∈ dot_S20000x60_S60x60_S20000x60_1_0_0_1_n_n.lhsNonContracting by decide)]
  rfl
theorem lhs_hid_1 (i : S20000x60.Idx) (q : dot_S20000x60_S60x60_S20000x60_1_0_0_1_n_n.contr.Idx) :
    (dot_S20000x60_S60x60_S20000x60_1_0_0_1_n_n.lhsIdx i q 1).val = (q ⟨0, by decide⟩).val :=
  dot_S20000x60_S60x60_S20000x60_1_0_0_1_n_n.lhsIdx_val_of_single rfl i q
theorem rhs_hid_0 (i : S20000x60.Idx) (q : dot_S20000x60_S60x60_S20000x60_1_0_0_1_n_n.contr.Idx) :
    (dot_S20000x60_S60x60_S20000x60_1_0_0_1_n_n.rhsIdx i q 0).val = (q ⟨0, by decide⟩).val :=
  dot_S20000x60_S60x60_S20000x60_1_0_0_1_n_n.rhsIdx_val_of_single rfl i q
theorem rhs_hid_1 (i : S20000x60.Idx) (q : dot_S20000x60_S60x60_S20000x60_1_0_0_1_n_n.contr.Idx) :
    (dot_S20000x60_S60x60_S20000x60_1_0_0_1_n_n.rhsIdx i q 1).val = (i 1).val := by
  unfold DotDims.rhsIdx
  rw [dif_neg (show ¬(1 : Fin S60x60.rank) ∈ dot_S20000x60_S60x60_S20000x60_1_0_0_1_n_n.rhsBatch by decide), dif_pos (show (1 : Fin S60x60.rank) ∈ dot_S20000x60_S60x60_S20000x60_1_0_0_1_n_n.rhsNonContracting by decide)]
  rfl

theorem lhs_out_0 (i : S20000x1.Idx) (q : dot_S20000x60_S60x1_S20000x1_1_0_0_1_n_n.contr.Idx) :
    (dot_S20000x60_S60x1_S20000x1_1_0_0_1_n_n.lhsIdx i q 0).val = (i 0).val := by
  unfold DotDims.lhsIdx
  rw [dif_neg (show ¬(0 : Fin S20000x60.rank) ∈ dot_S20000x60_S60x1_S20000x1_1_0_0_1_n_n.lhsBatch by decide), dif_pos (show (0 : Fin S20000x60.rank) ∈ dot_S20000x60_S60x1_S20000x1_1_0_0_1_n_n.lhsNonContracting by decide)]
  rfl
theorem lhs_out_1 (i : S20000x1.Idx) (q : dot_S20000x60_S60x1_S20000x1_1_0_0_1_n_n.contr.Idx) :
    (dot_S20000x60_S60x1_S20000x1_1_0_0_1_n_n.lhsIdx i q 1).val = (q ⟨0, by decide⟩).val :=
  dot_S20000x60_S60x1_S20000x1_1_0_0_1_n_n.lhsIdx_val_of_single rfl i q
theorem rhs_out_0 (i : S20000x1.Idx) (q : dot_S20000x60_S60x1_S20000x1_1_0_0_1_n_n.contr.Idx) :
    (dot_S20000x60_S60x1_S20000x1_1_0_0_1_n_n.rhsIdx i q 0).val = (q ⟨0, by decide⟩).val :=
  dot_S20000x60_S60x1_S20000x1_1_0_0_1_n_n.rhsIdx_val_of_single rfl i q
theorem rhs_out_1 (i : S20000x1.Idx) (q : dot_S20000x60_S60x1_S20000x1_1_0_0_1_n_n.contr.Idx) :
    (dot_S20000x60_S60x1_S20000x1_1_0_0_1_n_n.rhsIdx i q 1).val = (i 1).val := by
  unfold DotDims.rhsIdx
  rw [dif_neg (show ¬(1 : Fin S60x1.rank) ∈ dot_S20000x60_S60x1_S20000x1_1_0_0_1_n_n.rhsBatch by decide), dif_pos (show (1 : Fin S60x1.rank) ∈ dot_S20000x60_S60x1_S20000x1_1_0_0_1_n_n.rhsNonContracting by decide)]
  rfl

/-! ## The three products at an element: a sum over the contracted feature -/

/-- Rows of width 2 times a [2, 60] matrix, into zero. -/
theorem matmul_in_apply (l : FVec Ideal S20000x2 .f32) (w : FVec Ideal S2x60 .f32) (r : Fin 20000) (j : Fin 60) :
    matmul dot_S20000x2_S2x60_S20000x60_1_0_0_1_n_n none l w (constant (F := Ideal) S20000x60 .f32 0x00000000#32) (ix2 r j)
      = ∑ k : Fin 2, l (ix2 r k) * w (ix2 k j) := by
  simp only [matmul]
  rw [Ideal.matmul_constant_zero_apply, ← Equiv.sum_comp (contrEquiv1 dot_S20000x2_S2x60_S20000x60_1_0_0_1_n_n 2 rfl rfl).symm]
  refine Finset.sum_congr rfl fun k _ => ?_
  have hk := contrEquiv1_symm_val dot_S20000x2_S2x60_S20000x60_1_0_0_1_n_n 2 rfl rfl k
  have el : dot_S20000x2_S2x60_S20000x60_1_0_0_1_n_n.lhsIdx (ix2 r j) ((contrEquiv1 dot_S20000x2_S2x60_S20000x60_1_0_0_1_n_n 2 rfl rfl).symm k) = ix2 r k := funext fun a => Fin.ext (by
    match a with
    | ⟨0, _⟩ => exact lhs_in_0 _ _
    | ⟨1, _⟩ => exact (lhs_in_1 _ _).trans hk)
  have er : dot_S20000x2_S2x60_S20000x60_1_0_0_1_n_n.rhsIdx (ix2 r j) ((contrEquiv1 dot_S20000x2_S2x60_S20000x60_1_0_0_1_n_n 2 rfl rfl).symm k) = ix2 k j := funext fun a => Fin.ext (by
    match a with
    | ⟨0, _⟩ => exact (rhs_in_0 _ _).trans hk
    | ⟨1, _⟩ => exact rhs_in_1 _ _)
  rw [el, er]

/-- Rows of width 60 times a [60, 60] matrix, into zero. -/
theorem matmul_hid_apply (l : FVec Ideal S20000x60 .f32) (w : FVec Ideal S60x60 .f32) (r : Fin 20000) (j : Fin 60) :
    matmul dot_S20000x60_S60x60_S20000x60_1_0_0_1_n_n none l w (constant (F := Ideal) S20000x60 .f32 0x00000000#32) (ix2 r j)
      = ∑ k : Fin 60, l (ix2 r k) * w (ix2 k j) := by
  simp only [matmul]
  rw [Ideal.matmul_constant_zero_apply, ← Equiv.sum_comp (contrEquiv1 dot_S20000x60_S60x60_S20000x60_1_0_0_1_n_n 60 rfl rfl).symm]
  refine Finset.sum_congr rfl fun k _ => ?_
  have hk := contrEquiv1_symm_val dot_S20000x60_S60x60_S20000x60_1_0_0_1_n_n 60 rfl rfl k
  have el : dot_S20000x60_S60x60_S20000x60_1_0_0_1_n_n.lhsIdx (ix2 r j) ((contrEquiv1 dot_S20000x60_S60x60_S20000x60_1_0_0_1_n_n 60 rfl rfl).symm k) = ix2 r k := funext fun a => Fin.ext (by
    match a with
    | ⟨0, _⟩ => exact lhs_hid_0 _ _
    | ⟨1, _⟩ => exact (lhs_hid_1 _ _).trans hk)
  have er : dot_S20000x60_S60x60_S20000x60_1_0_0_1_n_n.rhsIdx (ix2 r j) ((contrEquiv1 dot_S20000x60_S60x60_S20000x60_1_0_0_1_n_n 60 rfl rfl).symm k) = ix2 k j := funext fun a => Fin.ext (by
    match a with
    | ⟨0, _⟩ => exact (rhs_hid_0 _ _).trans hk
    | ⟨1, _⟩ => exact rhs_hid_1 _ _)
  rw [el, er]

/-- Rows of width 60 times a [60, 1] column, into zero. -/
theorem matmul_out_apply (l : FVec Ideal S20000x60 .f32) (w : FVec Ideal S60x1 .f32) (r : Fin 20000) (j : Fin 1) :
    matmul dot_S20000x60_S60x1_S20000x1_1_0_0_1_n_n none l w (constant (F := Ideal) S20000x1 .f32 0x00000000#32) (ix2 r j)
      = ∑ k : Fin 60, l (ix2 r k) * w (ix2 k j) := by
  simp only [matmul]
  rw [Ideal.matmul_constant_zero_apply, ← Equiv.sum_comp (contrEquiv1 dot_S20000x60_S60x1_S20000x1_1_0_0_1_n_n 60 rfl rfl).symm]
  refine Finset.sum_congr rfl fun k _ => ?_
  have hk := contrEquiv1_symm_val dot_S20000x60_S60x1_S20000x1_1_0_0_1_n_n 60 rfl rfl k
  have el : dot_S20000x60_S60x1_S20000x1_1_0_0_1_n_n.lhsIdx (ix2 r j) ((contrEquiv1 dot_S20000x60_S60x1_S20000x1_1_0_0_1_n_n 60 rfl rfl).symm k) = ix2 r k := funext fun a => Fin.ext (by
    match a with
    | ⟨0, _⟩ => exact lhs_out_0 _ _
    | ⟨1, _⟩ => exact (lhs_out_1 _ _).trans hk)
  have er : dot_S20000x60_S60x1_S20000x1_1_0_0_1_n_n.rhsIdx (ix2 r j) ((contrEquiv1 dot_S20000x60_S60x1_S20000x1_1_0_0_1_n_n 60 rfl rfl).symm k) = ix2 k j := funext fun a => Fin.ext (by
    match a with
    | ⟨0, _⟩ => exact (rhs_out_0 _ _).trans hk
    | ⟨1, _⟩ => exact rhs_out_1 _ _)
  rw [el, er]

/-! ## The joined input rows -/

/-- Row `r` of the two input columns joined side by side: feature 0 from the first column, feature 1 from the second. -/
theorem joined_apply (x0 x1 : FVec Ideal S20000x1 .f32) (r : Fin 20000) (k : Fin 2) :
    concatenate S20000x2 1 [⟨S20000x1, x0⟩, ⟨S20000x1, x1⟩] concatenates_S20000x1_S20000x1_S20000x2_d1 (ix2 r k)
      = pair (x0 (ix2 r (0 : Fin 1))) (x1 (ix2 r (0 : Fin 1))) k := by
  match k with
  | ⟨0, _⟩ =>
    refine (concatenate_pair_apply_left (1 : Fin S20000x2.rank) x0 x1 concatenates_S20000x1_S20000x1_S20000x2_d1 _ rfl
      (ix2 r (0 : Fin 1)) (fun b => ?_)).trans ?_
    · match b with
      | ⟨0, _⟩ => rfl
      | ⟨1, _⟩ => rfl
    · rfl
  | ⟨1, _⟩ =>
    refine (concatenate_pair_apply_right (1 : Fin S20000x2.rank) x0 x1 concatenates_S20000x1_S20000x1_S20000x2_d1 _ rfl rfl
      (ix2 r (0 : Fin 1)) (fun b hb => ?_) rfl).trans ?_
    · match b with
      | ⟨0, _⟩ => rfl
      | ⟨1, _⟩ => exact absurd rfl hb
    · rfl

/-! ## One layer on a block, row by row -/

/-- The first layer before its activation, as the body spells it: the joined rows times the [2, 60] weights, plus the
    bias row broadcast down the block. -/
abbrev pre_in (x0 x1 : FVec Ideal S20000x1 .f32) (w : FVec Ideal S2x60 .f32) (b : FVec Ideal S1x60 .f32) : FVec Ideal S20000x60 .f32 :=
  addf (matmul dot_S20000x2_S2x60_S20000x60_1_0_0_1_n_n none
      (concatenate S20000x2 1 [⟨S20000x1, x0⟩, ⟨S20000x1, x1⟩] concatenates_S20000x1_S20000x1_S20000x2_d1)
      (shapeCast S2x60 w shapeCasts_S2x60_S2x60) (constant (F := Ideal) S20000x60 .f32 0x00000000#32))
    (broadcastTo S20000x60 (shapeCast S1x60 b shapeCasts_S1x60_S1x60) broadcasts_S1x60_S20000x60)

/-- A middle layer before its activation: the block times the [60, 60] weights, plus the broadcast bias row. -/
abbrev pre_hid (h : FVec Ideal S20000x60 .f32) (w : FVec Ideal S60x60 .f32) (b : FVec Ideal S1x60 .f32) : FVec Ideal S20000x60 .f32 :=
  addf (matmul dot_S20000x60_S60x60_S20000x60_1_0_0_1_n_n none h
      (shapeCast S60x60 w shapeCasts_S60x60_S60x60) (constant (F := Ideal) S20000x60 .f32 0x00000000#32))
    (broadcastTo S20000x60 (shapeCast S1x60 b shapeCasts_S1x60_S1x60) broadcasts_S1x60_S20000x60)

/-- The last layer: the block times the [60, 1] weights, plus the broadcast bias. -/
abbrev pre_out (h : FVec Ideal S20000x60 .f32) (w : FVec Ideal S60x1 .f32) (b : FVec Ideal S1x1 .f32) : FVec Ideal S20000x1 .f32 :=
  addf (matmul dot_S20000x60_S60x1_S20000x1_1_0_0_1_n_n none h
      (shapeCast S60x1 w shapeCasts_S60x1_S60x1) (constant (F := Ideal) S20000x1 .f32 0x00000000#32))
    (broadcastTo S20000x1 (shapeCast S1x1 b shapeCasts_S1x1_S1x1) broadcasts_S1x1_S20000x1)

/-- Row `r` after the first layer and its SiLU is `hidden` of the input pair of that row. -/
theorem first_rows (x0 x1 : FVec Ideal S20000x1 .f32) (w : FVec Ideal S2x60 .f32) (b : FVec Ideal S1x60 .f32) (r : Fin 20000) (j : Fin 60) :
    mulf (pre_in x0 x1 w b) (logistic (pre_in x0 x1 w b)) (ix2 r j)
      = hidden (fun k j => w (ix2 k j)) (fun j => b (ix2 (0 : Fin 1) j)) (pair (x0 (ix2 r (0 : Fin 1))) (x1 (ix2 r (0 : Fin 1)))) j := by
  show silu (pre_in x0 x1 w b (ix2 r j)) = silu _
  refine congrArg silu ?_
  show addf _ _ (ix2 r j) = _
  rw [shapeCast_self, shapeCast_self, addf_apply, matmul_in_apply, broadcastTo_1b_ab_apply]
  unfold affine
  simp only [joined_apply]

/-- Row `r` after a middle layer and its SiLU is `hidden` of row `r` of the block it was given (`H r`). -/
theorem hidden_rows (h : FVec Ideal S20000x60 .f32) (w : FVec Ideal S60x60 .f32) (b : FVec Ideal S1x60 .f32)
    (H : Fin 20000 → Fin 60 → EReal) (hH : ∀ r k, h (ix2 r k) = H r k) (r : Fin 20000) (j : Fin 60) :
    mulf (pre_hid h w b) (logistic (pre_hid h w b)) (ix2 r j)
      = hidden (fun k j => w (ix2 k j)) (fun j => b (ix2 (0 : Fin 1) j)) (H r) j := by
  show silu (pre_hid h w b (ix2 r j)) = silu _
  refine congrArg silu ?_
  show addf _ _ (ix2 r j) = _
  rw [shapeCast_self, shapeCast_self, addf_apply, matmul_hid_apply, broadcastTo_1b_ab_apply]
  unfold affine
  simp only [hH]

/-- Row `r` after the last layer is `affine` of row `r` of the block it was given. -/
theorem last_rows (h : FVec Ideal S20000x60 .f32) (w : FVec Ideal S60x1 .f32) (b : FVec Ideal S1x1 .f32)
    (H : Fin 20000 → Fin 60 → EReal) (hH : ∀ r k, h (ix2 r k) = H r k) (r : Fin 20000) (j : Fin 1) :
    pre_out h w b (ix2 r j) = affine (fun k j => w (ix2 k j)) (fun j => b (ix2 (0 : Fin 1) j)) (H r) j := by
  show addf _ _ (ix2 r j) = _
  rw [shapeCast_self, shapeCast_self, addf_apply, matmul_out_apply, broadcastTo_1b_ab_apply]
  unfold affine
  simp only [hH]

/-! ## The whole body on a block -/

/-- The block after the first layer's SiLU. -/
abbrev act_in (x0 x1 : FVec Ideal S20000x1 .f32) (w : FVec Ideal S2x60 .f32) (b : FVec Ideal S1x60 .f32) : FVec Ideal S20000x60 .f32 :=
  mulf (pre_in x0 x1 w b) (logistic (pre_in x0 x1 w b))

/-- A block after a middle layer's SiLU. -/
abbrev act_hid (h : FVec Ideal S20000x60 .f32) (w : FVec Ideal S60x60 .f32) (b : FVec Ideal S1x60 .f32) : FVec Ideal S20000x60 .f32 :=
  mulf (pre_hid h w b) (logistic (pre_hid h w b))

/-- The body's stored value is the seven layers applied one after another (its text, regrouped). -/
theorem body_eq (x0 x1 : FVec Ideal S20000x1 .f32) (w1 : FVec Ideal S2x60 .f32) (b1 : FVec Ideal S1x60 .f32)
    (w2 : FVec Ideal S60x60 .f32) (b2 : FVec Ideal S1x60 .f32) (w3 : FVec Ideal S60x60 .f32) (b3 : FVec Ideal S1x60 .f32)
    (w4 : FVec Ideal S60x60 .f32) (b4 : FVec Ideal S1x60 .f32) (w5 : FVec Ideal S60x60 .f32) (b5 : FVec Ideal S1x60 .f32)
    (w6 : FVec Ideal S60x60 .f32) (b6 : FVec Ideal S1x60 .f32) (w7 : FVec Ideal S60x1 .f32) (b7 : FVec Ideal S1x1 .f32) :
    k0_pay1 (F := Ideal) (k0_pay2 (F := Ideal) x0 x1 w1 b1 w2 b2 w3 b3 w4) (k0_pay3 (F := Ideal) b4) w5 b5 w6 b6 w7 b7
      = pre_out (act_hid (act_hid (act_hid (act_hid (act_hid (act_in x0 x1 w1 b1) w2 b2) w3 b3) w4 b4) w5 b5) w6 b6) w7 b7 := rfl

/-- What the body stores at row `r` of its output block: the network of the body's loaded parameter blocks on the
    input pair of row `r`. -/
theorem block_apply (x0 x1 : FVec Ideal S20000x1 .f32) (w1 : FVec Ideal S2x60 .f32) (b1 : FVec Ideal S1x60 .f32)
    (w2 : FVec Ideal S60x60 .f32) (b2 : FVec Ideal S1x60 .f32) (w3 : FVec Ideal S60x60 .f32) (b3 : FVec Ideal S1x60 .f32)
    (w4 : FVec Ideal S60x60 .f32) (b4 : FVec Ideal S1x60 .f32) (w5 : FVec Ideal S60x60 .f32) (b5 : FVec Ideal S1x60 .f32)
    (w6 : FVec Ideal S60x60 .f32) (b6 : FVec Ideal S1x60 .f32) (w7 : FVec Ideal S60x1 .f32) (b7 : FVec Ideal S1x1 .f32)
    (r : Fin 20000) :
    k0_pay1 (F := Ideal) (k0_pay2 (F := Ideal) x0 x1 w1 b1 w2 b2 w3 b3 w4) (k0_pay3 (F := Ideal) b4) w5 b5 w6 b6 w7 b7 (ix2 r (0 : Fin 1))
      = net (fun k j => w1 (ix2 k j)) (fun j => b1 (ix2 (0 : Fin 1) j)) (fun k j => w2 (ix2 k j)) (fun j => b2 (ix2 (0 : Fin 1) j))
          (fun k j => w3 (ix2 k j)) (fun j => b3 (ix2 (0 : Fin 1) j)) (fun k j => w4 (ix2 k j)) (fun j => b4 (ix2 (0 : Fin 1) j))
          (fun k j => w5 (ix2 k j)) (fun j => b5 (ix2 (0 : Fin 1) j)) (fun k j => w6 (ix2 k j)) (fun j => b6 (ix2 (0 : Fin 1) j))
          (fun k j => w7 (ix2 k j)) (fun j => b7 (ix2 (0 : Fin 1) j)) (pair (x0 (ix2 r (0 : Fin 1))) (x1 (ix2 r (0 : Fin 1)))) := by
  rw [body_eq]
  have e1 : ∀ (r : Fin 20000) (k : Fin 60), act_in x0 x1 w1 b1 (ix2 r k)
      = hidden (fun k j => w1 (ix2 k j)) (fun j => b1 (ix2 (0 : Fin 1) j)) (pair (x0 (ix2 r (0 : Fin 1))) (x1 (ix2 r (0 : Fin 1)))) k :=
    fun r k => first_rows x0 x1 w1 b1 r k
  have e2 := fun (r : Fin 20000) (k : Fin 60) => hidden_rows (act_in x0 x1 w1 b1) w2 b2 _ e1 r k
  have e3 := fun (r : Fin 20000) (k : Fin 60) => hidden_rows _ w3 b3 _ e2 r k
  have e4 := fun (r : Fin 20000) (k : Fin 60) => hidden_rows _ w4 b4 _ e3 r k
  have e5 := fun (r : Fin 20000) (k : Fin 60) => hidden_rows _ w5 b5 _ e4 r k
  have e6 := fun (r : Fin 20000) (k : Fin 60) => hidden_rows _ w6 b6 _ e5 r k
  exact last_rows _ w7 b7 _ e6 r 0

end Cert.KernelIdeal.BlockRows

end
-- ==== Proof.NetArray.lean ====
/-
  The network applied to every row of the two input columns: the one function of the sixteen argument arrays that
  both programs' results are.

  The inputs are two columns `X`, `Y` of a million rows; row `i` of the result is `SiluNet.net` on the pair
  `(X i, Y i)`. The parameter arrays are read as they are given: a weight array `W` of shape [out, in] supplies
  `w k j = W[j, k]` (input feature `k`, output feature `j`), a bias vector `B` supplies `b j = B[j]`.
-/
import proofs.«180178_j45535243272834_1_alg».proof.Proof.SiluNet
import Idealize.ShloMosaic.Lib.ValueIdx

noncomputable section

namespace Cert.SiluNet

open Idealize.ShloMosaic Idealize.ShloMosaic.ValueIdx

/-- Row `i` of the result: the network with weights `W[j, k]` and biases `B[j]` on the input pair `(X i, Y i)`. -/
def netArray (X Y : (⟨2, ![1000000, 1]⟩ : Shape).Idx → EReal)
    (W1 : (⟨2, ![60, 2]⟩ : Shape).Idx → EReal) (B1 : (⟨1, ![60]⟩ : Shape).Idx → EReal)
    (W2 : (⟨2, ![60, 60]⟩ : Shape).Idx → EReal) (B2 : (⟨1, ![60]⟩ : Shape).Idx → EReal)
    (W3 : (⟨2, ![60, 60]⟩ : Shape).Idx → EReal) (B3 : (⟨1, ![60]⟩ : Shape).Idx → EReal)
    (W4 : (⟨2, ![60, 60]⟩ : Shape).Idx → EReal) (B4 : (⟨1, ![60]⟩ : Shape).Idx → EReal)
    (W5 : (⟨2, ![60, 60]⟩ : Shape).Idx → EReal) (B5 : (⟨1, ![60]⟩ : Shape).Idx → EReal)
    (W6 : (⟨2, ![60, 60]⟩ : Shape).Idx → EReal) (B6 : (⟨1, ![60]⟩ : Shape).Idx → EReal)
    (W7 : (⟨2, ![1, 60]⟩ : Shape).Idx → EReal) (B7 : (⟨1, ![1]⟩ : Shape).Idx → EReal) :
    (⟨2, ![1000000, 1]⟩ : Shape).Idx → EReal :=
  fun i => net (fun k j => W1 (ix2 j k)) (fun j => B1 (ix1 j)) (fun k j => W2 (ix2 j k)) (fun j => B2 (ix1 j))
    (fun k j => W3 (ix2 j k)) (fun j => B3 (ix1 j)) (fun k j => W4 (ix2 j k)) (fun j => B4 (ix1 j))
    (fun k j => W5 (ix2 j k)) (fun j => B5 (ix1 j)) (fun k j => W6 (ix2 j k)) (fun j => B6 (ix1 j))
    (fun k j => W7 (ix2 j k)) (fun j => B7 (ix1 j)) (pair (X i) (Y i))

/-- An index of a one-column array is its row with column 0. -/
theorem col_index (i : (⟨2, ![1000000, 1]⟩ : Shape).Idx) : i = ix2 (i 0) (0 : Fin 1) := by
  funext a
  match a with
  | ⟨0, _⟩ => rfl
  | ⟨1, _⟩ => exact Subsingleton.elim (α := Fin 1) _ _

end Cert.SiluNet

end
-- ==== Proof.KernelArray.lean ====
/-
  From blocks to the array: what the kernel's result array holds after the run, over the extended reals.

  The grid has 50 points; point `t` reads rows `20000·t … 20000·t + 19999` of the two input columns and every
  parameter array whole (their index maps are constant), and writes back the same rows of the result. The parameter
  arrays the region finds were made by the host operations before it: each weight array transposed, each bias vector
  recast as a one-row array. So the body's `w[k, j]` is the argument's `W[j, k]`, its `b[0, j]` is `B[j]`, and row `p`
  of point `t`'s block is row `20000·t + p` of the argument columns: what point `t` writes back is block `t` of
  `SiluNet.netArray` of the arguments. The 50 blocks tile the million rows, so the array ends as `netArray`.
-/
import proofs.«180178_j45535243272834_1_alg».proof.Proof.Gen.KernelIdeal.Value
import proofs.«180178_j45535243272834_1_alg».proof.Proof.BlockLayers
import proofs.«180178_j45535243272834_1_alg».proof.Proof.NetArray
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.SiluNet
open Idealize.ShloMosaic.Pipeline (Dat)

variable (m : (ℓ : Loc nD τ sig) → Buf (Elt Ideal) ℓ) (ρ : Dev nD → PrngReg)

/-- An argument array of core `c` as launched. -/
abbrev arg (c : Dev nD) (b : Ref sig .tc) : Buf (Elt Ideal) ((c : Thread nD τ).loc b) := m ((c : Thread nD τ).loc b)

/-- The result the certificate names: the network of the sixteen argument arrays as launched. -/
def result (c : Dev nD) : S1000000x1.Idx → EReal :=
  netArray (arg m c main_arg0) (arg m c main_arg1) (arg m c main_arg2) (arg m c main_arg3) (arg m c main_arg4) (arg m c main_arg5)
    (arg m c main_arg6) (arg m c main_arg7) (arg m c main_arg8) (arg m c main_arg9) (arg m c main_arg10) (arg m c main_arg11)
    (arg m c main_arg12) (arg m c main_arg13) (arg m c main_arg14) (arg m c main_arg15)

theorem hz : (![0, 0] : Fin 2 → Nat) = fun _ => 0 := funext fun a => by fin_cases a <;> rfl

/-! ## The parameter arrays as the region finds them: the host operations before it, read off -/

theorem V_wt1 (c : Dev nD) : (V m c main_v0 : S2x60.Idx → EReal) = transpose S2x60 [1, 0] (arg m c main_arg2) transposes_S60x2_S2x60_1_0 := by
  dsimp only [V, hostOps0]; after_results
theorem V_wt2 (c : Dev nD) : (V m c main_v1 : S60x60.Idx → EReal) = transpose S60x60 [1, 0] (arg m c main_arg4) transposes_S60x60_S60x60_1_0 := by
  dsimp only [V, hostOps0]; after_results
theorem V_wt3 (c : Dev nD) : (V m c main_v2 : S60x60.Idx → EReal) = transpose S60x60 [1, 0] (arg m c main_arg6) transposes_S60x60_S60x60_1_0 := by
  dsimp only [V, hostOps0]; after_results
theorem V_wt4 (c : Dev nD) : (V m c main_v3 : S60x60.Idx → EReal) = transpose S60x60 [1, 0] (arg m c main_arg8) transposes_S60x60_S60x60_1_0 := by
  dsimp only [V, hostOps0]; after_results
theorem V_wt5 (c : Dev nD) : (V m c main_v4 : S60x60.Idx → EReal) = transpose S60x60 [1, 0] (arg m c main_arg10) transposes_S60x60_S60x60_1_0 := by
  dsimp only [V, hostOps0]; after_results
theorem V_wt6 (c : Dev nD) : (V m c main_v5 : S60x60.Idx → EReal) = transpose S60x60 [1, 0] (arg m c main_arg12) transposes_S60x60_S60x60_1_0 := by
  dsimp only [V, hostOps0]; after_results
theorem V_wt7 (c : Dev nD) : (V m c main_v6 : S60x1.Idx → EReal) = transpose S60x1 [1, 0] (arg m c main_arg14) transposes_S1x60_S60x1_1_0 := by
  dsimp only [V, hostOps0]; after_results

theorem V_b1r (c : Dev nD) : (V m c main_v7 : S1x60.Idx → EReal) = shapeCast S1x60 (arg m c main_arg3) shapeCasts_S60_S1x60 := by
  dsimp only [V, hostOps0]; after_results; rfl
theorem V_b2r (c : Dev nD) : (V m c main_v8 : S1x60.Idx → EReal) = shapeCast S1x60 (arg m c main_arg5) shapeCasts_S60_S1x60 := by
  dsimp only [V, hostOps0]; after_results; rfl
theorem V_b3r (c : Dev nD) : (V m c main_v9 : S1x60.Idx → EReal) = shapeCast S1x60 (arg m c main_arg7) shapeCasts_S60_S1x60 := by
  dsimp only [V, hostOps0]; after_results; rfl
theorem V_b4r (c : Dev nD) : (V m c main_v10 : S1x60.Idx → EReal) = shapeCast S1x60 (arg m c main_arg9) shapeCasts_S60_S1x60 := by
  dsimp only [V, hostOps0]; after_results; rfl
theorem V_b5r (c : Dev nD) : (V m c main_v11 : S1x60.Idx → EReal) = shapeCast S1x60 (arg m c main_arg11) shapeCasts_S60_S1x60 := by
  dsimp only [V, hostOps0]; after_results; rfl
theorem V_b6r (c : Dev nD) : (V m c main_v12 : S1x60.Idx → EReal) = shapeCast S1x60 (arg m c main_arg13) shapeCasts_S60_S1x60 := by
  dsimp only [V, hostOps0]; after_results; rfl
theorem V_b7r (c : Dev nD) : (V m c main_v13 : S1x1.Idx → EReal) = shapeCast S1x1 (arg m c main_arg15) shapeCasts_S1_S1x1 := by
  dsimp only [V, hostOps0]; after_results; rfl

/-! ## Where the windows' blocks sit (each decided over the 50 grid points) -/

/-- The two input columns and the result move down 20000 rows per grid point. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_16.index t (0 : Fin 2) = t.val ∧ win0_16.index t (1 : Fin 2) = 0 :=
  (by decide +kernel : ∀ t : Fin grid0.N, _)

/-- Every parameter array is read whole at every point: block index (0, 0). -/
theorem idx_wt1 : ∀ t : Fin cfg0.N, win0_2.index t (0 : Fin 2) = 0 ∧ win0_2.index t (1 : Fin 2) = 0 :=
  (by decide +kernel : ∀ t : Fin grid0.N, _)
theorem idx_b1r : ∀ t : Fin cfg0.N, win0_3.index t (0 : Fin 2) = 0 ∧ win0_3.index t (1 : Fin 2) = 0 :=
  (by decide +kernel : ∀ t : Fin grid0.N, _)
theorem idx_wt2 : ∀ t : Fin cfg0.N, win0_4.index t (0 : Fin 2) = 0 ∧ win0_4.index t (1 : Fin 2) = 0 :=
  (by decide +kernel : ∀ t : Fin grid0.N, _)
theorem idx_b2r : ∀ t : Fin cfg0.N, win0_5.index t (0 : Fin 2) = 0 ∧ win0_5.index t (1 : Fin 2) = 0 :=
  (by decide +kernel : ∀ t : Fin grid0.N, _)
theorem idx_wt3 : ∀ t : Fin cfg0.N, win0_6.index t (0 : Fin 2) = 0 ∧ win0_6.index t (1 : Fin 2) = 0 :=
  (by decide +kernel : ∀ t : Fin grid0.N, _)
theorem idx_b3r : ∀ t : Fin cfg0.N, win0_7.index t (0 : Fin 2) = 0 ∧ win0_7.index t (1 : Fin 2) = 0 :=
  (by decide +kernel : ∀ t : Fin grid0.N, _)
theorem idx_wt4 : ∀ t : Fin cfg0.N, win0_8.index t (0 : Fin 2) = 0 ∧ win0_8.index t (1 : Fin 2) = 0 :=
  (by decide +kernel : ∀ t : Fin grid0.N, _)
theorem idx_b4r : ∀ t : Fin cfg0.N, win0_9.index t (0 : Fin 2) = 0 ∧ win0_9.index t (1 : Fin 2) = 0 :=
  (by decide +kernel : ∀ t : Fin grid0.N, _)
theorem idx_wt5 : ∀ t : Fin cfg0.N, win0_10.index t (0 : Fin 2) = 0 ∧ win0_10.index t (1 : Fin 2) = 0 :=
  (by decide +kernel : ∀ t : Fin grid0.N, _)
theorem idx_b5r : ∀ t : Fin cfg0.N, win0_11.index t (0 : Fin 2) = 0 ∧ win0_11.index t (1 : Fin 2) = 0 :=
  (by decide +kernel : ∀ t : Fin grid0.N, _)
theorem idx_wt6 : ∀ t : Fin cfg0.N, win0_12.index t (0 : Fin 2) = 0 ∧ win0_12.index t (1 : Fin 2) = 0 :=
  (by decide +kernel : ∀ t : Fin grid0.N, _)
theorem idx_b6r : ∀ t : Fin cfg0.N, win0_13.index t (0 : Fin 2) = 0 ∧ win0_13.index t (1 : Fin 2) = 0 :=
  (by decide +kernel : ∀ t : Fin grid0.N, _)
theorem idx_wt7 : ∀ t : Fin cfg0.N, win0_14.index t (0 : Fin 2) = 0 ∧ win0_14.index t (1 : Fin 2) = 0 :=
  (by decide +kernel : ∀ t : Fin grid0.N, _)
theorem idx_b7r : ∀ t : Fin cfg0.N, win0_15.index t (0 : Fin 2) = 0 ∧ win0_15.index t (1 : Fin 2) = 0 :=
  (by decide +kernel : ∀ t : Fin grid0.N, _)

/-! ## The weights as the body loads them: `w[k, j]` is the argument's `W[j, k]` -/

theorem blk_wt1 (c : Dev nD) (t : Fin cfg0.N) (k : Fin 2) (j : Fin 60) :
    (iblk m c 2 t : S2x60.Idx → EReal) (ix2 k j) = arg m c main_arg2 (ix2 j k) := by
  unfold iblk
  rw [View.read_apply]
  show V m c main_v0 (((cfg0.win 2).blk t).view.emb (ix2 k j)) = _
  have he : ((cfg0.win 2).blk t).view.emb (ix2 k j) = ix2 k j := by
    funext a; apply Fin.ext
    obtain ⟨e0, e1⟩ := idx_wt1 t
    match a with
    | ⟨0, _⟩ => show win0_2.index t (0 : Fin 2) * 2 + 1 * k.val = k.val; omega
    | ⟨1, _⟩ => show win0_2.index t (1 : Fin 2) * 60 + 1 * j.val = j.val; omega
  rw [he, V_wt1]
  exact transpose_ix2_apply _ _ k j

theorem blk_wt2 (c : Dev nD) (t : Fin cfg0.N) (k : Fin 60) (j : Fin 60) :
    (iblk m c 4 t : S60x60.Idx → EReal) (ix2 k j) = arg m c main_arg4 (ix2 j k) := by
  unfold iblk
  rw [View.read_apply]
  show V m c main_v1 (((cfg0.win 4).blk t).view.emb (ix2 k j)) = _
  have he : ((cfg0.win 4).blk t).view.emb (ix2 k j) = ix2 k j := by
    funext a; apply Fin.ext
    obtain ⟨e0, e1⟩ := idx_wt2 t
    match a with
    | ⟨0, _⟩ => show win0_4.index t (0 : Fin 2) * 60 + 1 * k.val = k.val; omega
    | ⟨1, _⟩ => show win0_4.index t (1 : Fin 2) * 60 + 1 * j.val = j.val; omega
  rw [he, V_wt2]
  exact transpose_ix2_apply _ _ k j

theorem blk_wt3 (c : Dev nD) (t : Fin cfg0.N) (k : Fin 60) (j : Fin 60) :
    (iblk m c 6 t : S60x60.Idx → EReal) (ix2 k j) = arg m c main_arg6 (ix2 j k) := by
  unfold iblk
  rw [View.read_apply]
  show V m c main_v2 (((cfg0.win 6).blk t).view.emb (ix2 k j)) = _
  have he : ((cfg0.win 6).blk t).view.emb (ix2 k j) = ix2 k j := by
    funext a; apply Fin.ext
    obtain ⟨e0, e1⟩ := idx_wt3 t
    match a with
    | ⟨0, _⟩ => show win0_6.index t (0 : Fin 2) * 60 + 1 * k.val = k.val; omega
    | ⟨1, _⟩ => show win0_6.index t (1 : Fin 2) * 60 + 1 * j.val = j.val; omega
  rw [he, V_wt3]
  exact transpose_ix2_apply _ _ k j

theorem blk_wt4 (c : Dev nD) (t : Fin cfg0.N) (k : Fin 60) (j : Fin 60) :
    (iblk m c 8 t : S60x60.Idx → EReal) (ix2 k j) = arg m c main_arg8 (ix2 j k) := by
  unfold iblk
  rw [View.read_apply]
  show V m c main_v3 (((cfg0.win 8).blk t).view.emb (ix2 k j)) = _
  have he : ((cfg0.win 8).blk t).view.emb (ix2 k j) = ix2 k j := by
    funext a; apply Fin.ext
    obtain ⟨e0, e1⟩ := idx_wt4 t
    match a with
    | ⟨0, _⟩ => show win0_8.index t (0 : Fin 2) * 60 + 1 * k.val = k.val; omega
    | ⟨1, _⟩ => show win0_8.index t (1 : Fin 2) * 60 + 1 * j.val = j.val; omega
  rw [he, V_wt4]
  exact transpose_ix2_apply _ _ k j

theorem blk_wt5 (c : Dev nD) (t : Fin cfg0.N) (k : Fin 60) (j : Fin 60) :
    (iblk m c 10 t : S60x60.Idx → EReal) (ix2 k j) = arg m c main_arg10 (ix2 j k) := by
  unfold iblk
  rw [View.read_apply]
  show V m c main_v4 (((cfg0.win 10).blk t).view.emb (ix2 k j)) = _
  have he : ((cfg0.win 10).blk t).view.emb (ix2 k j) = ix2 k j := by
    funext a; apply Fin.ext
    obtain ⟨e0, e1⟩ := idx_wt5 t
    match a with
    | ⟨0, _⟩ => show win0_10.index t (0 : Fin 2) * 60 + 1 * k.val = k.val; omega
    | ⟨1, _⟩ => show win0_10.index t (1 : Fin 2) * 60 + 1 * j.val = j.val; omega
  rw [he, V_wt5]
  exact transpose_ix2_apply _ _ k j

theorem blk_wt6 (c : Dev nD) (t : Fin cfg0.N) (k : Fin 60) (j : Fin 60) :
    (iblk m c 12 t : S60x60.Idx → EReal) (ix2 k j) = arg m c main_arg12 (ix2 j k) := by
  unfold iblk
  rw [View.read_apply]
  show V m c main_v5 (((cfg0.win 12).blk t).view.emb (ix2 k j)) = _
  have he : ((cfg0.win 12).blk t).view.emb (ix2 k j) = ix2 k j := by
    funext a; apply Fin.ext
    obtain ⟨e0, e1⟩ := idx_wt6 t
    match a with
    | ⟨0, _⟩ => show win0_12.index t (0 : Fin 2) * 60 + 1 * k.val = k.val; omega
    | ⟨1, _⟩ => show win0_12.index t (1 : Fin 2) * 60 + 1 * j.val = j.val; omega
  rw [he, V_wt6]
  exact transpose_ix2_apply _ _ k j

theorem blk_wt7 (c : Dev nD) (t : Fin cfg0.N) (k : Fin 60) (j : Fin 1) :
    (iblk m c 14 t : S60x1.Idx → EReal) (ix2 k j) = arg m c main_arg14 (ix2 j k) := by
  unfold iblk
  rw [View.read_apply]
  show V m c main_v6 (((cfg0.win 14).blk t).view.emb (ix2 k j)) = _
  have he : ((cfg0.win 14).blk t).view.emb (ix2 k j) = ix2 k j := by
    funext a; apply Fin.ext
    obtain ⟨e0, e1⟩ := idx_wt7 t
    match a with
    | ⟨0, _⟩ => show win0_14.index t (0 : Fin 2) * 60 + 1 * k.val = k.val; omega
    | ⟨1, _⟩ => show win0_14.index t (1 : Fin 2) * 1 + 1 * j.val = j.val; omega
  rw [he, V_wt7]
  exact transpose_ix2_apply _ _ k j

/-! ## The biases as the body loads them: `b[0, j]` is the argument's `B[j]` -/

theorem blk_b1r (c : Dev nD) (t : Fin cfg0.N) (j : Fin 60) :
    (iblk m c 3 t : S1x60.Idx → EReal) (ix2 (0 : Fin 1) j) = arg m c main_arg3 (ix1 j) := by
  unfold iblk
  rw [View.read_apply]
  show V m c main_v7 (((cfg0.win 3).blk t).view.emb (ix2 (0 : Fin 1) j)) = _
  have he : ((cfg0.win 3).blk t).view.emb (ix2 (0 : Fin 1) j) = ix2 (0 : Fin 1) j := by
    funext a; apply Fin.ext
    obtain ⟨e0, e1⟩ := idx_b1r t
    match a with
    | ⟨0, _⟩ => show win0_3.index t (0 : Fin 2) * 1 + 1 * 0 = 0; omega
    | ⟨1, _⟩ => show win0_3.index t (1 : Fin 2) * 60 + 1 * j.val = j.val; omega
  rw [he, V_b1r]
  exact shapeCast_a_1a_apply _ _ 0 j

theorem blk_b2r (c : Dev nD) (t : Fin cfg0.N) (j : Fin 60) :
    (iblk m c 5 t : S1x60.Idx → EReal) (ix2 (0 : Fin 1) j) = arg m c main_arg5 (ix1 j) := by
  unfold iblk
  rw [View.read_apply]
  show V m c main_v8 (((cfg0.win 5).blk t).view.emb (ix2 (0 : Fin 1) j)) = _
  have he : ((cfg0.win 5).blk t).view.emb (ix2 (0 : Fin 1) j) = ix2 (0 : Fin 1) j := by
    funext a; apply Fin.ext
    obtain ⟨e0, e1⟩ := idx_b2r t
    match a with
    | ⟨0, _⟩ => show win0_5.index t (0 : Fin 2) * 1 + 1 * 0 = 0; omega
    | ⟨1, _⟩ => show win0_5.index t (1 : Fin 2) * 60 + 1 * j.val = j.val; omega
  rw [he, V_b2r]
  exact shapeCast_a_1a_apply _ _ 0 j

theorem blk_b3r (c : Dev nD) (t : Fin cfg0.N) (j : Fin 60) :
    (iblk m c 7 t : S1x60.Idx → EReal) (ix2 (0 : Fin 1) j) = arg m c main_arg7 (ix1 j) := by
  unfold iblk
  rw [View.read_apply]
  show V m c main_v9 (((cfg0.win 7).blk t).view.emb (ix2 (0 : Fin 1) j)) = _
  have he : ((cfg0.win 7).blk t).view.emb (ix2 (0 : Fin 1) j) = ix2 (0 : Fin 1) j := by
    funext a; apply Fin.ext
    obtain ⟨e0, e1⟩ := idx_b3r t
    match a with
    | ⟨0, _⟩ => show win0_7.index t (0 : Fin 2) * 1 + 1 * 0 = 0; omega
    | ⟨1, _⟩ => show win0_7.index t (1 : Fin 2) * 60 + 1 * j.val = j.val; omega
  rw [he, V_b3r]
  exact shapeCast_a_1a_apply _ _ 0 j

theorem blk_b4r (c : Dev nD) (t : Fin cfg0.N) (j : Fin 60) :
    (iblk m c 9 t : S1x60.Idx → EReal) (ix2 (0 : Fin 1) j) = arg m c main_arg9 (ix1 j) := by
  unfold iblk
  rw [View.read_apply]
  show V m c main_v10 (((cfg0.win 9).blk t).view.emb (ix2 (0 : Fin 1) j)) = _
  have he : ((cfg0.win 9).blk t).view.emb (ix2 (0 : Fin 1) j) = ix2 (0 : Fin 1) j := by
    funext a; apply Fin.ext
    obtain ⟨e0, e1⟩ := idx_b4r t
    match a with
    | ⟨0, _⟩ => show win0_9.index t (0 : Fin 2) * 1 + 1 * 0 = 0; omega
    | ⟨1, _⟩ => show win0_9.index t (1 : Fin 2) * 60 + 1 * j.val = j.val; omega
  rw [he, V_b4r]
  exact shapeCast_a_1a_apply _ _ 0 j

theorem blk_b5r (c : Dev nD) (t : Fin cfg0.N) (j : Fin 60) :
    (iblk m c 11 t : S1x60.Idx → EReal) (ix2 (0 : Fin 1) j) = arg m c main_arg11 (ix1 j) := by
  unfold iblk
  rw [View.read_apply]
  show V m c main_v11 (((cfg0.win 11).blk t).view.emb (ix2 (0 : Fin 1) j)) = _
  have he : ((cfg0.win 11).blk t).view.emb (ix2 (0 : Fin 1) j) = ix2 (0 : Fin 1) j := by
    funext a; apply Fin.ext
    obtain ⟨e0, e1⟩ := idx_b5r t
    match a with
    | ⟨0, _⟩ => show win0_11.index t (0 : Fin 2) * 1 + 1 * 0 = 0; omega
    | ⟨1, _⟩ => show win0_11.index t (1 : Fin 2) * 60 + 1 * j.val = j.val; omega
  rw [he, V_b5r]
  exact shapeCast_a_1a_apply _ _ 0 j

theorem blk_b6r (c : Dev nD) (t : Fin cfg0.N) (j : Fin 60) :
    (iblk m c 13 t : S1x60.Idx → EReal) (ix2 (0 : Fin 1) j) = arg m c main_arg13 (ix1 j) := by
  unfold iblk
  rw [View.read_apply]
  show V m c main_v12 (((cfg0.win 13).blk t).view.emb (ix2 (0 : Fin 1) j)) = _
  have he : ((cfg0.win 13).blk t).view.emb (ix2 (0 : Fin 1) j) = ix2 (0 : Fin 1) j := by
    funext a; apply Fin.ext
    obtain ⟨e0, e1⟩ := idx_b6r t
    match a with
    | ⟨0, _⟩ => show win0_13.index t (0 : Fin 2) * 1 + 1 * 0 = 0; omega
    | ⟨1, _⟩ => show win0_13.index t (1 : Fin 2) * 60 + 1 * j.val = j.val; omega
  rw [he, V_b6r]
  exact shapeCast_a_1a_apply _ _ 0 j

theorem blk_b7r (c : Dev nD) (t : Fin cfg0.N) (j : Fin 1) :
    (iblk m c 15 t : S1x1.Idx → EReal) (ix2 (0 : Fin 1) j) = arg m c main_arg15 (ix1 j) := by
  unfold iblk
  rw [View.read_apply]
  show V m c main_v13 (((cfg0.win 15).blk t).view.emb (ix2 (0 : Fin 1) j)) = _
  have he : ((cfg0.win 15).blk t).view.emb (ix2 (0 : Fin 1) j) = ix2 (0 : Fin 1) j := by
    funext a; apply Fin.ext
    obtain ⟨e0, e1⟩ := idx_b7r t
    match a with
    | ⟨0, _⟩ => show win0_15.index t (0 : Fin 2) * 1 + 1 * 0 = 0; omega
    | ⟨1, _⟩ => show win0_15.index t (1 : Fin 2) * 1 + 1 * j.val = j.val; omega
  rw [he, V_b7r]
  exact shapeCast_a_1a_apply _ _ 0 j

/-! ## The input columns as the body loads them: row `p` of point `t`'s block sits where the result's row `p` does -/

theorem blk_x (c : Dev nD) (t : Fin cfg0.N) (p : Fin 20000) :
    (iblk m c 0 t : S20000x1.Idx → EReal) (ix2 p (0 : Fin 1)) = arg m c main_arg0 (((cfg0.win 16).blk t).view.emb (ix2 p (0 : Fin 1))) := by
  unfold iblk
  rw [View.read_apply]
  show V m c main_arg0 (((cfg0.win 0).blk t).view.emb (ix2 p (0 : Fin 1))) = _
  rw [V_main_arg0]
  refine congrArg _ ?_
  funext a; apply Fin.ext
  obtain ⟨e0, e1, e2, e3, e4, e5⟩ := idx_rows t
  match a with
  | ⟨0, _⟩ => show win0_0.index t (0 : Fin 2) * 20000 + 1 * p.val = win0_16.index t (0 : Fin 2) * 20000 + 1 * p.val; omega
  | ⟨1, _⟩ => show win0_0.index t (1 : Fin 2) * 1 + 1 * 0 = win0_16.index t (1 : Fin 2) * 1 + 1 * 0; omega

theorem blk_y (c : Dev nD) (t : Fin cfg0.N) (p : Fin 20000) :
    (iblk m c 1 t : S20000x1.Idx → EReal) (ix2 p (0 : Fin 1)) = arg m c main_arg1 (((cfg0.win 16).blk t).view.emb (ix2 p (0 : Fin 1))) := by
  unfold iblk
  rw [View.read_apply]
  show V m c main_arg1 (((cfg0.win 1).blk t).view.emb (ix2 p (0 : Fin 1))) = _
  rw [V_main_arg1]
  refine congrArg _ ?_
  funext a; apply Fin.ext
  obtain ⟨e0, e1, e2, e3, e4, e5⟩ := idx_rows t
  match a with
  | ⟨0, _⟩ => show win0_1.index t (0 : Fin 2) * 20000 + 1 * p.val = win0_16.index t (0 : Fin 2) * 20000 + 1 * p.val; omega
  | ⟨1, _⟩ => show win0_1.index t (1 : Fin 2) * 1 + 1 * 0 = win0_16.index t (1 : Fin 2) * 1 + 1 * 0; omega

/-! ## What a point writes back, the cover, the array -/

/-- WHAT POINT `t` WRITES BACK is block `t` of the network of the argument arrays. -/
theorem flushed_eq (c : Dev nD) (t : Fin cfg0.N) :
    (dats m 0 c).flushed 16 t = ((cfg0.win 16).blk t).view.read (Elt Ideal) (result m c) := by
  show (cfg0.win 16).cut (grid0.coords t) ((dats m 0 c).after 16 t) = _
  rw [after0_16]
  unfold out0_16
  rw [View.canon_unit_zero hz]
  simp only [View.ld_unit_zero (S := S20000x1) hz, View.ld_unit_zero (S := S2x60) hz, View.ld_unit_zero (S := S1x60) hz,
    View.ld_unit_zero (S := S60x60) hz, View.ld_unit_zero (S := S60x1) hz, View.ld_unit_zero (S := S1x1) hz]
  funext y
  obtain ⟨p, q, rfl⟩ : ∃ (p : Fin 20000) (q : Fin 1), y = ix2 p q := ⟨y 0, y 1, eq_ix2 y⟩
  obtain rfl : q = 0 := Subsingleton.elim _ _
  show k0_pay1 (F := Ideal) (k0_pay2 (F := Ideal) (iblk m c 0 t) (iblk m c 1 t) (iblk m c 2 t) (iblk m c 3 t) (iblk m c 4 t) (iblk m c 5 t)
      (iblk m c 6 t) (iblk m c 7 t) (iblk m c 8 t)) (k0_pay3 (F := Ideal) (iblk m c 9 t)) (iblk m c 10 t) (iblk m c 11 t) (iblk m c 12 t)
      (iblk m c 13 t) (iblk m c 14 t) (iblk m c 15 t) (ix2 p (0 : Fin 1))
    = result m c (((cfg0.win 16).blk t).view.emb (ix2 p (0 : Fin 1)))
  refine (BlockRows.block_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) p).trans ?_
  unfold result netArray
  simp only [blk_wt1, blk_wt2, blk_wt3, blk_wt4, blk_wt5, blk_wt6, blk_wt7, blk_b1r, blk_b2r, blk_b3r, blk_b4r, blk_b5r, blk_b6r,
    blk_b7r, blk_x, blk_y]

/-- An index of the result is in point `t`'s block iff each coordinate is in the block's range on its axis. -/
theorem mem_blk (t : Fin cfg0.N) (i : S1000000x1.Idx) :
    i ∈ ((cfg0.win 16).blk t).view.set ↔ ∀ a : Fin 2, win0_16.index t a * S20000x1.size a ≤ (i a).val ∧ (i a).val < win0_16.index t a * S20000x1.size a + S20000x1.size a := by
  show i ∈ ((View.whole main_v14).slice (win0_16.rect t)).set ↔ _
  rw [View.set_slice_whole, Rect.mem_set_unit]
  exact Iff.rfl

/-- THE COVER: row `r` of the result is written by point `r / 20000`. -/
theorem cover (i : S1000000x1.Idx) : ∃ t : Fin cfg0.N, (cfg0.win 16).flush t = true ∧ i ∈ ((cfg0.win 16).blk t).view.set := by
  have hi0 : (i 0).val < 1000000 := (i 0).isLt
  have hi1 : (i 1).val < 1 := (i 1).isLt
  have ht : (i 0).val / 20000 < 50 := by omega
  obtain ⟨-, -, -, -, e4, e5⟩ := idx_rows ⟨(i 0).val / 20000, ht⟩
  refine ⟨⟨(i 0).val / 20000, ht⟩, flush0_16 _, ?_⟩
  rw [mem_blk]
  intro a
  match a with
  | ⟨0, _⟩ =>
    show win0_16.index ⟨(i 0).val / 20000, ht⟩ (0 : Fin 2) * 20000 ≤ (i 0).val ∧ (i 0).val < win0_16.index ⟨(i 0).val / 20000, ht⟩ (0 : Fin 2) * 20000 + 20000
    rw [e4]
    show (i 0).val / 20000 * 20000 ≤ (i 0).val ∧ (i 0).val < (i 0).val / 20000 * 20000 + 20000
    omega
  | ⟨1, _⟩ =>
    show win0_16.index ⟨(i 0).val / 20000, ht⟩ (1 : Fin 2) * 1 ≤ (i 1).val ∧ (i 1).val < win0_16.index ⟨(i 0).val / 20000, ht⟩ (1 : Fin 2) * 1 + 1
    rw [e5]
    omega

/-- THE ARRAY after the run is the network of the argument arrays. -/
theorem final (c : Dev nD) : (dats m 0 c).arrAt 16 cfg0.N = result m c :=
  (dats m 0 c).arrAt_eq_of_cover 16 (result m c) (fun t _ => flushed_eq m c t) cover

/-! ## The run, read -/

/-- The kernel's run re-posted: the result array at the network of the arguments, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelIdeal.ArrayValue

end
-- ==== Proof.RefRows.lean ====
/-
  The reference program, read row by row over the extended reals.

  The reference joins the two input columns, and then seven times multiplies by a transposed weight array (`h @ W.T`,
  a contraction over the input feature), adds the bias broadcast over the rows, and, after each of the first six, applies
  SiLU spelled out as negate, exponential, add one, divide one by it, multiply. Read at row `r` and feature `j`, the
  contraction is `∑ₖ h[r,k] · W[j,k]`, the broadcast bias is `B[j]`, and the spelled-out SiLU is `SiluNet.silu`; so
  every layer is `SiluNet.hidden` (the last `SiluNet.affine`) of row `r` of the layer before. The six hidden layers
  are one statement: it is proved once over an arbitrary array `h` of a million rows, and each stage of the program is
  that term of the stage before it, by definition.
-/
import proofs.«180178_j45535243272834_1_alg».proof.Proof.Gen.ReferenceIdeal.Read
import proofs.«180178_j45535243272834_1_alg».proof.Proof.NetArray
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefRows

open Cert.ReferenceIdeal Cert.ReferenceIdeal.Gen Cert.ReferenceIdeal.Read Idealize.ShloMosaic Idealize.ShloMosaic.ValueIdx Cert.SiluNet

/-! ## The pieces of a layer, read at an element -/

/-- The scalar one, broadcast over a [1000000, 60] array, is the word for one at every index. -/
theorem ones_apply (i : S1000000x60.Idx) :
    broadcastInDim S1000000x60 ![] bcast_S_S1000000x60 (constant (F := Ideal) S_ .f32 0x3F800000#32) i
      = FloatOps.ofBits (F := Ideal) .f32 0x3F800000#32 :=
  broadcastInDim_apply _ bcast_S_S1000000x60 _ i (fun a => a.elim0) (fun a => a.elim0)

/-- SiLU as the reference spells it on a whole array: `v · (1 / (1 + e^{-v}))`. -/
def siluHost (v : FVec Ideal S1000000x60 .f32) : FVec Ideal S1000000x60 .f32 :=
  mulf v (Host.divf (broadcastInDim S1000000x60 ![] bcast_S_S1000000x60 (constant (F := Ideal) S_ .f32 0x3F800000#32))
    (addf (broadcastInDim S1000000x60 ![] bcast_S_S1000000x60 (constant (F := Ideal) S_ .f32 0x3F800000#32)) (Host.exp (Host.negf v))))

/-- At an element it is `silu` of the element. -/
theorem siluHost_apply (v : FVec Ideal S1000000x60 .f32) (i : S1000000x60.Idx) : siluHost v i = silu (v i) := by
  show FloatOps.mulf (v i) (FloatOps.hostDivf (broadcastInDim S1000000x60 ![] bcast_S_S1000000x60 (constant (F := Ideal) S_ .f32 0x3F800000#32) i)
    (FloatOps.addf (broadcastInDim S1000000x60 ![] bcast_S_S1000000x60 (constant (F := Ideal) S_ .f32 0x3F800000#32) i)
      (FloatOps.hostUnary .exp (FloatOps.hostNegf (v i))))) = silu (v i)
  rw [ones_apply, silu_of_quotient]

/-- A bias vector of 60 entries, made a row and broadcast over a million rows, reads `B[j]` at `(r, j)`. -/
theorem bias_apply (B : FVec Ideal S60 .f32) (r : Fin 1000000) (j : Fin 60) :
    broadcastInDim S1000000x60 ![0, 1] bcast_S1x60_S1000000x60_0_1 (broadcastInDim S1x60 ![1] bcast_S60_S1x60_1 B) (ix2 r j) = B (ix1 j) := by
  refine (broadcastInDim_apply _ bcast_S1x60_S1000000x60_0_1 _ (ix2 r j) (ix2 (0 : Fin 1) j) (fun a => ?_)).trans ?_
  · match a with
    | ⟨0, _⟩ => show 0 = if (1 : Nat) = 1 then 0 else r.val; rw [if_pos rfl]
    | ⟨1, _⟩ => show j.val = if (60 : Nat) = 1 then 0 else j.val; rw [if_neg (by decide)]
  · refine broadcastInDim_apply _ bcast_S60_S1x60_1 B (ix2 (0 : Fin 1) j) (ix1 j) (fun a => ?_)
    match a with
    | ⟨0, _⟩ => show j.val = if (60 : Nat) = 1 then 0 else j.val; rw [if_neg (by decide)]

/-- The contraction of a [1000000, 60] array with a [60, 60] one over the shared feature. -/
theorem dot_hid_apply (h : FVec Ideal S1000000x60 .f32) (w : FVec Ideal S60x60 .f32) (r : Fin 1000000) (j : Fin 60) :
    Host.dotGeneral dot_S1000000x60_S60x60_S1000000x60_1_0_0_1_n_n none h w (ix2 r j) = ∑ k : Fin 60, h (ix2 r k) * w (ix2 k j) := by
  simp only [Host.dotGeneral]
  rw [Ideal.dotGeneral_apply, ← Equiv.sum_comp (contrEquiv1 dot_S1000000x60_S60x60_S1000000x60_1_0_0_1_n_n 60 rfl rfl).symm]
  refine Finset.sum_congr rfl fun k _ => ?_
  have hk := contrEquiv1_symm_val dot_S1000000x60_S60x60_S1000000x60_1_0_0_1_n_n 60 rfl rfl k
  have el : dot_S1000000x60_S60x60_S1000000x60_1_0_0_1_n_n.lhsIdx (ix2 r j) ((contrEquiv1 dot_S1000000x60_S60x60_S1000000x60_1_0_0_1_n_n 60 rfl rfl).symm k) = ix2 r k :=
    funext fun a => Fin.ext (by
      match a with
      | ⟨0, _⟩ => exact lhs_main_v8_0 _ _
      | ⟨1, _⟩ => exact (lhs_main_v8_1 _ _).trans hk)
  have er : dot_S1000000x60_S60x60_S1000000x60_1_0_0_1_n_n.rhsIdx (ix2 r j) ((contrEquiv1 dot_S1000000x60_S60x60_S1000000x60_1_0_0_1_n_n 60 rfl rfl).symm k) = ix2 k j :=
    funext fun a => Fin.ext (by
      match a with
      | ⟨0, _⟩ => exact (rhs_main_v8_0 _ _).trans hk
      | ⟨1, _⟩ => exact rhs_main_v8_1 _ _)
  rw [el, er]

/-- The contraction of the joined [1000000, 2] rows with a [2, 60] array. -/
theorem dot_in_apply (h : FVec Ideal S1000000x2 .f32) (w : FVec Ideal S2x60 .f32) (r : Fin 1000000) (j : Fin 60) :
    Host.dotGeneral dot_S1000000x2_S2x60_S1000000x60_1_0_0_1_n_n none h w (ix2 r j) = ∑ k : Fin 2, h (ix2 r k) * w (ix2 k j) := by
  simp only [Host.dotGeneral]
  rw [Ideal.dotGeneral_apply, ← Equiv.sum_comp (contrEquiv1 dot_S1000000x2_S2x60_S1000000x60_1_0_0_1_n_n 2 rfl rfl).symm]
  refine Finset.sum_congr rfl fun k _ => ?_
  have hk := contrEquiv1_symm_val dot_S1000000x2_S2x60_S1000000x60_1_0_0_1_n_n 2 rfl rfl k
  have el : dot_S1000000x2_S2x60_S1000000x60_1_0_0_1_n_n.lhsIdx (ix2 r j) ((contrEquiv1 dot_S1000000x2_S2x60_S1000000x60_1_0_0_1_n_n 2 rfl rfl).symm k) = ix2 r k :=
    funext fun a => Fin.ext (by
      match a with
      | ⟨0, _⟩ => exact lhs_main_v2_0 _ _
      | ⟨1, _⟩ => exact (lhs_main_v2_1 _ _).trans hk)
  have er : dot_S1000000x2_S2x60_S1000000x60_1_0_0_1_n_n.rhsIdx (ix2 r j) ((contrEquiv1 dot_S1000000x2_S2x60_S1000000x60_1_0_0_1_n_n 2 rfl rfl).symm k) = ix2 k j :=
    funext fun a => Fin.ext (by
      match a with
      | ⟨0, _⟩ => exact (rhs_main_v2_0 _ _).trans hk
      | ⟨1, _⟩ => exact rhs_main_v2_1 _ _)
  rw [el, er]

/-- The contraction of a [1000000, 60] array with a [60, 1] column. -/
theorem dot_out_apply (h : FVec Ideal S1000000x60 .f32) (w : FVec Ideal S60x1 .f32) (r : Fin 1000000) (j : Fin 1) :
    Host.dotGeneral dot_S1000000x60_S60x1_S1000000x1_1_0_0_1_n_n none h w (ix2 r j) = ∑ k : Fin 60, h (ix2 r k) * w (ix2 k j) := by
  simp only [Host.dotGeneral]
  rw [Ideal.dotGeneral_apply, ← Equiv.sum_comp (contrEquiv1 dot_S1000000x60_S60x1_S1000000x1_1_0_0_1_n_n 60 rfl rfl).symm]
  refine Finset.sum_congr rfl fun k _ => ?_
  have hk := contrEquiv1_symm_val dot_S1000000x60_S60x1_S1000000x1_1_0_0_1_n_n 60 rfl rfl k
  have el : dot_S1000000x60_S60x1_S1000000x1_1_0_0_1_n_n.lhsIdx (ix2 r j) ((contrEquiv1 dot_S1000000x60_S60x1_S1000000x1_1_0_0_1_n_n 60 rfl rfl).symm k) = ix2 r k :=
    funext fun a => Fin.ext (by
      match a with
      | ⟨0, _⟩ => exact lhs_main_v38_0 _ _
      | ⟨1, _⟩ => exact (lhs_main_v38_1 _ _).trans hk)
  have er : dot_S1000000x60_S60x1_S1000000x1_1_0_0_1_n_n.rhsIdx (ix2 r j) ((contrEquiv1 dot_S1000000x60_S60x1_S1000000x1_1_0_0_1_n_n 60 rfl rfl).symm k) = ix2 k j :=
    funext fun a => Fin.ext (by
      match a with
      | ⟨0, _⟩ => exact (rhs_main_v38_0 _ _).trans hk
      | ⟨1, _⟩ => exact rhs_main_v38_1 _ _)
  rw [el, er]

/-- Row `r` of the two input columns joined side by side. -/
theorem joined_apply (x0 x1 : FVec Ideal S1000000x1 .f32) (r : Fin 1000000) (k : Fin 2) :
    concatenate S1000000x2 1 [⟨S1000000x1, x0⟩, ⟨S1000000x1, x1⟩] concatenates_S1000000x1_S1000000x1_S1000000x2_d1 (ix2 r k)
      = pair (x0 (ix2 r (0 : Fin 1))) (x1 (ix2 r (0 : Fin 1))) k := by
  match k with
  | ⟨0, _⟩ =>
    refine (concatenate_pair_apply_left (1 : Fin S1000000x2.rank) x0 x1 concatenates_S1000000x1_S1000000x1_S1000000x2_d1 _ rfl
      (ix2 r (0 : Fin 1)) (fun b => ?_)).trans ?_
    · match b with
      | ⟨0, _⟩ => rfl
      | ⟨1, _⟩ => rfl
    · rfl
  | ⟨1, _⟩ =>
    refine (concatenate_pair_apply_right (1 : Fin S1000000x2.rank) x0 x1 concatenates_S1000000x1_S1000000x1_S1000000x2_d1 _ rfl rfl
      (ix2 r (0 : Fin 1)) (fun b hb => ?_) rfl).trans ?_
    · match b with
      | ⟨0, _⟩ => rfl
      | ⟨1, _⟩ => exact absurd rfl hb
    · rfl

/-! ## The three kinds of layer over arbitrary operands -/

/-- The first layer: the joined rows against `W.T` for a [60, 2] array `W`, plus the bias, then SiLU. -/
def firstLayer (x0 x1 : FVec Ideal S1000000x1 .f32) (W : FVec Ideal S60x2 .f32) (B : FVec Ideal S60 .f32) : FVec Ideal S1000000x60 .f32 :=
  siluHost (addf (Host.dotGeneral dot_S1000000x2_S2x60_S1000000x60_1_0_0_1_n_n none
      (concatenate S1000000x2 1 [⟨S1000000x1, x0⟩, ⟨S1000000x1, x1⟩] concatenates_S1000000x1_S1000000x1_S1000000x2_d1)
      (transpose S2x60 [1, 0] W transposes_S60x2_S2x60_1_0))
    (broadcastInDim S1000000x60 ![0, 1] bcast_S1x60_S1000000x60_0_1 (broadcastInDim S1x60 ![1] bcast_S60_S1x60_1 B)))

/-- A middle layer: an array `h` of a million rows against `W.T` for a [60, 60] array `W`, plus the bias, then SiLU. -/
def midLayer (h : FVec Ideal S1000000x60 .f32) (W : FVec Ideal S60x60 .f32) (B : FVec Ideal S60 .f32) : FVec Ideal S1000000x60 .f32 :=
  siluHost (addf (Host.dotGeneral dot_S1000000x60_S60x60_S1000000x60_1_0_0_1_n_n none h (transpose S60x60 [1, 0] W transposes_S60x60_S60x60_1_0))
    (broadcastInDim S1000000x60 ![0, 1] bcast_S1x60_S1000000x60_0_1 (broadcastInDim S1x60 ![1] bcast_S60_S1x60_1 B)))

/-- The last layer: `h` against `W.T` for a [1, 60] array `W`, plus the one bias entry; no activation. -/
def lastLayer (h : FVec Ideal S1000000x60 .f32) (W : FVec Ideal S1x60 .f32) (B : FVec Ideal S1 .f32) : FVec Ideal S1000000x1 .f32 :=
  addf (Host.dotGeneral dot_S1000000x60_S60x1_S1000000x1_1_0_0_1_n_n none h (transpose S60x1 [1, 0] W transposes_S1x60_S60x1_1_0))
    (broadcastInDim S1000000x1 ![0, 1] bcast_S1x1_S1000000x1_0_1 (broadcastInDim S1x1 ![1] bcast_S1_S1x1_1 B))

/-- Row `r` of the first layer is `hidden` of the input pair of that row, with `w k j = W[j, k]`, `b j = B[j]`. -/
theorem firstLayer_apply (x0 x1 : FVec Ideal S1000000x1 .f32) (W : FVec Ideal S60x2 .f32) (B : FVec Ideal S60 .f32) (r : Fin 1000000) (j : Fin 60) :
    firstLayer x0 x1 W B (ix2 r j)
      = hidden (fun k j => W (ix2 j k)) (fun j => B (ix1 j)) (pair (x0 (ix2 r (0 : Fin 1))) (x1 (ix2 r (0 : Fin 1)))) j := by
  unfold firstLayer
  rw [siluHost_apply]
  refine congrArg silu ?_
  rw [addf_apply, dot_in_apply, bias_apply]
  unfold affine
  simp only [joined_apply]
  refine congrArg (· + B (ix1 j)) (Finset.sum_congr rfl fun k _ => ?_)
  exact congrArg (_ * ·) (transpose_ix2_apply W transposes_S60x2_S2x60_1_0 k j)

/-- Row `r` of a middle layer is `hidden` of row `r` of the array it was given. -/
theorem midLayer_apply (h : FVec Ideal S1000000x60 .f32) (W : FVec Ideal S60x60 .f32) (B : FVec Ideal S60 .f32) (r : Fin 1000000) (j : Fin 60) :
    midLayer h W B (ix2 r j) = hidden (fun k j => W (ix2 j k)) (fun j => B (ix1 j)) (fun k => h (ix2 r k)) j := by
  unfold midLayer
  rw [siluHost_apply]
  refine congrArg silu ?_
  rw [addf_apply, dot_hid_apply, bias_apply]
  unfold affine
  dsimp only
  refine congrArg (· + B (ix1 j)) (Finset.sum_congr rfl fun k _ => ?_)
  exact congrArg (_ * ·) (transpose_ix2_apply W transposes_S60x60_S60x60_1_0 k j)

/-- Row `r` of the last layer is `affine` of row `r` of the array it was given. -/
theorem lastLayer_apply (h : FVec Ideal S1000000x60 .f32) (W : FVec Ideal S1x60 .f32) (B : FVec Ideal S1 .f32) (r : Fin 1000000) (j : Fin 1) :
    lastLayer h W B (ix2 r j) = affine (fun k j => W (ix2 j k)) (fun j => B (ix1 j)) (fun k => h (ix2 r k)) j := by
  unfold lastLayer
  rw [addf_apply, dot_out_apply]
  have hb : broadcastInDim S1000000x1 ![0, 1] bcast_S1x1_S1000000x1_0_1 (broadcastInDim S1x1 ![1] bcast_S1_S1x1_1 B) (ix2 r j) = B (ix1 j) := by
    refine (broadcastInDim_apply _ bcast_S1x1_S1000000x1_0_1 _ (ix2 r j) (ix2 (0 : Fin 1) (0 : Fin 1)) (fun a => ?_)).trans ?_
    · match a with
      | ⟨0, _⟩ => show 0 = if (1 : Nat) = 1 then 0 else r.val; rw [if_pos rfl]
      | ⟨1, _⟩ => show 0 = if (1 : Nat) = 1 then 0 else j.val; rw [if_pos rfl]
    · refine (broadcastInDim_apply _ bcast_S1_S1x1_1 B (ix2 (0 : Fin 1) (0 : Fin 1)) (ix1 (0 : Fin 1)) (fun a => ?_)).trans ?_
      · match a with
        | ⟨0, _⟩ => show 0 = if (1 : Nat) = 1 then 0 else 0; rw [if_pos rfl]
      · exact congrArg B (congrArg ix1 (Subsingleton.elim (α := Fin 1) _ _))
  rw [hb]
  unfold affine
  dsimp only
  refine congrArg (· + B (ix1 j)) (Finset.sum_congr rfl fun k _ => ?_)
  exact congrArg (_ * ·) (transpose_ix2_apply W transposes_S1x60_S60x1_1_0 k j)

/-! ## The program's stages are those layers, one after another -/

/-- The reference's result is the last layer of the sixth of the ... of the first layer of the arguments: each stage
    the generated reading names is, by definition, the layer term of the stage before it. -/
theorem result_layers (x0 x1 : FVec Ideal S1000000x1 .f32) (x2 : FVec Ideal S60x2 .f32) (x3 : FVec Ideal S60 .f32)
    (x4 : FVec Ideal S60x60 .f32) (x5 : FVec Ideal S60 .f32) (x6 : FVec Ideal S60x60 .f32) (x7 : FVec Ideal S60 .f32)
    (x8 : FVec Ideal S60x60 .f32) (x9 : FVec Ideal S60 .f32) (x10 : FVec Ideal S60x60 .f32) (x11 : FVec Ideal S60 .f32)
    (x12 : FVec Ideal S60x60 .f32) (x13 : FVec Ideal S60 .f32) (x14 : FVec Ideal S1x60 .f32) (x15 : FVec Ideal S1 .f32) :
    val_main_v41 (F := Ideal) x0 x1 x2 x3 x4 x5 x6 x7 x8 x9 x10 x11 x12 x13 x14 x15
      = lastLayer (midLayer (midLayer (midLayer (midLayer (midLayer (firstLayer x0 x1 x2 x3) x4 x5) x6 x7) x8 x9) x10 x11) x12 x13) x14 x15 := rfl

/-- THE REFERENCE IS THE NETWORK: its result array is `netArray` of its sixteen arguments. -/
theorem result_eq (x0 x1 : FVec Ideal S1000000x1 .f32) (x2 : FVec Ideal S60x2 .f32) (x3 : FVec Ideal S60 .f32)
    (x4 : FVec Ideal S60x60 .f32) (x5 : FVec Ideal S60 .f32) (x6 : FVec Ideal S60x60 .f32) (x7 : FVec Ideal S60 .f32)
    (x8 : FVec Ideal S60x60 .f32) (x9 : FVec Ideal S60 .f32) (x10 : FVec Ideal S60x60 .f32) (x11 : FVec Ideal S60 .f32)
    (x12 : FVec Ideal S60x60 .f32) (x13 : FVec Ideal S60 .f32) (x14 : FVec Ideal S1x60 .f32) (x15 : FVec Ideal S1 .f32) :
    val_main_v41 (F := Ideal) x0 x1 x2 x3 x4 x5 x6 x7 x8 x9 x10 x11 x12 x13 x14 x15
      = netArray x0 x1 x2 x3 x4 x5 x6 x7 x8 x9 x10 x11 x12 x13 x14 x15 := by
  rw [result_layers]
  funext i
  obtain ⟨r, q, rfl⟩ : ∃ (r : Fin 1000000) (q : Fin 1), i = ix2 r q := ⟨i 0, i 1, eq_ix2 i⟩
  obtain rfl : q = 0 := Subsingleton.elim _ _
  rw [lastLayer_apply]
  unfold netArray net
  simp only [midLayer_apply, firstLayer_apply]

end Cert.ReferenceIdeal.RefRows

end
-- ==== Proof.lean ====
/-
  A seven-layer perceptron with SiLU activations on a million input rows: the Pallas kernel (rows tiled 20000 at a
  time over a grid of 50 points, the parameter arrays transposed and re-laid on the host and kept resident) against
  the plain jnp reference (`silu(h @ W.T + b)` six times, then `h @ W7.T + b7`).

  Over the extended reals both programs compute, for every row `i`, the same expression of the sixteen argument arrays,
  `SiluNet.netArray`: each layer is `∑ₖ h[k] · W[j, k] + B[j]`, followed (but for the last) by `v · logistic v`. The
  kernel's `logistic` operation and the reference's spelled-out `1 / (1 + e^{-v})` are one function there, a matrix
  product into a zero accumulator and the host's contraction are the same sum, and the transposes, recasts and
  broadcasts only move entries. The two sides are therefore the SAME term index by index; no law of arithmetic joins
  them and the precondition (finite inputs) is never opened.

  The kernel's side is `KernelArray` (blocks to the array) over `BlockLayers` (one block, row by row); the
  reference's is `RefRows`; the frames are the generated ones, the reference's being its generated run with the
  result dropped. The idealization rewrote nothing, so `preserves` is `True`.
-/
import proofs.«180178_j45535243272834_1_alg».proof.Defs
import proofs.«180178_j45535243272834_1_alg».proof.Proof.Gen.Kernel
import proofs.«180178_j45535243272834_1_alg».proof.Proof.Gen.Kernel.Frame
import proofs.«180178_j45535243272834_1_alg».proof.Proof.Gen.KernelIdeal
import proofs.«180178_j45535243272834_1_alg».proof.Proof.Gen.KernelIdeal.Frame
import proofs.«180178_j45535243272834_1_alg».proof.Proof.Gen.KernelIdeal.Value
import proofs.«180178_j45535243272834_1_alg».proof.Proof.Gen.ReferenceIdeal
import proofs.«180178_j45535243272834_1_alg».proof.Proof.Gen.ReferenceIdeal.Run
import proofs.«180178_j45535243272834_1_alg».proof.Proof.Gen.ReferenceIdeal.Read
import proofs.«180178_j45535243272834_1_alg».proof.Proof.Gen.Pre_finite_inputs
import proofs.«180178_j45535243272834_1_alg».proof.Proof.KernelArray
import proofs.«180178_j45535243272834_1_alg».proof.Proof.RefRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `netArray` of arguments that agree. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefRows.result_eq]
  obtain ⟨h0, h1, h2, h3, h4, h5, h6, h7, h8, h9, h10, h11, h12, h13, h14, h15⟩ := hagree c
  rw [h0, h1, h2, h3, h4, h5, h6, h7, h8, h9, h10, h11, h12, h13, h14, h15]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
